-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144 : Shape := ⟨2, ![8, 262144]⟩
abbrev S8x8x262144 : Shape := ⟨3, ![8, 8, 262144]⟩
abbrev S8x8 : Shape := ⟨2, ![8, 8]⟩
abbrev S_ : Shape := ⟨0, ![]⟩

class Facts : Prop where
  bcast_S_S8x262144 : S_.BroadcastsInDim S8x262144 (![] : Fin 0 → Fin S8x262144.rank)
  reducesTo_S8x262144_S_d0_1 : S8x262144.ReducesTo [0, 1] S_
  h_S_ : 0 < S_.numel
  bcast_S_S8x8x262144 : S_.BroadcastsInDim S8x8x262144 (![] : Fin 0 → Fin S8x8x262144.rank)
  reducesTo_S8x8x262144_S_d0_1_2 : S8x8x262144.ReducesTo [0, 1, 2] S_

variable [Facts]

def fn_part1 {F : FTy → Type} [FloatOps F] (main_arg4 : FVec F S8x8x262144 .f32) (main_arg5 : FVec F S8x8x262144 .f32) (main_v13 : IVec S_ 1) (main_v16 : IVec S8x262144 1) : IVec S_ 1 :=
  let main_c_5 : IVec S_ 1 := constantI S_ 1 1#1
  let main_v17 : IVec S_ 1 := (fun x v => Host.reduce IntOp.andi x v reducesTo_S8x262144_S_d0_1 h_S_) main_v16 main_c_5
  let main_v18 : IVec S_ 1 := andi main_v13 main_v17
  let main_v19 : FVec F S8x8x262144 .f32 := Host.absf main_arg4
  let main_cst_6 : FVec F S_ .f32 := constant S_ .f32 0x7F800000#32
  let main_v20 : FVec F S8x8x262144 .f32 := broadcastInDim S8x8x262144 ![] bcast_S_S8x8x262144 main_cst_6
  let main_v21 : IVec S8x8x262144 1 := cmpf .olt main_v19 main_v20
  let main_c_7 : IVec S_ 1 := constantI S_ 1 1#1
  let main_v22 : IVec S_ 1 := (fun x v => Host.reduce IntOp.andi x v reducesTo_S8x8x262144_S_d0_1_2 h_S_) main_v21 main_c_7
  let main_v23 : IVec S_ 1 := andi main_v18 main_v22
  let main_v24 : FVec F S8x8x262144 .f32 := Host.absf main_arg5
  let main_cst_8 : FVec F S_ .f32 := constant S_ .f32 0x7F800000#32
  let main_v25 : FVec F S8x8x262144 .f32 := broadcastInDim S8x8x262144 ![] bcast_S_S8x8x262144 main_cst_8
  let main_v26 : IVec S8x8x262144 1 := cmpf .olt main_v24 main_v25
  let main_c_9 : IVec S_ 1 := constantI S_ 1 1#1
  let main_v27 : IVec S_ 1 := (fun x v => Host.reduce IntOp.andi x v reducesTo_S8x8x262144_S_d0_1_2 h_S_) main_v26 main_c_9
  let main_v28 : IVec S_ 1 := andi main_v23 main_v27
  main_v28

def fn {F : FTy → Type} [FloatOps F] (main_arg0 : FVec F S8x262144 .f32) (main_arg1 : FVec F S8x262144 .f32) (main_arg2 : FVec F S8x262144 .f32) (main_arg3 : FVec F S8x262144 .f32) (main_arg4 : FVec F S8x8x262144 .f32) (main_arg5 : FVec F S8x8x262144 .f32) (main_arg6 : IVec S8x8 32) : IVec S_ 1 :=
  let main_v0 : FVec F S8x262144 .f32 := Host.absf main_arg0
  let main_cst : FVec F S_ .f32 := constant S_ .f32 0x7F800000#32
  let main_v1 : FVec F S8x262144 .f32 := broadcastInDim S8x262144 ![] bcast_S_S8x262144 main_cst
  let main_v2 : IVec S8x262144 1 := cmpf .olt main_v0 main_v1
  let main_c : IVec S_ 1 := constantI S_ 1 1#1
  let main_v3 : IVec S_ 1 := (fun x v => Host.reduce IntOp.andi x v reducesTo_S8x262144_S_d0_1 h_S_) main_v2 main_c
  let main_v4 : FVec F S8x262144 .f32 := Host.absf main_arg1
  let main_cst_0 : FVec F S_ .f32 := constant S_ .f32 0x7F800000#32
  let main_v5 : FVec F S8x262144 .f32 := broadcastInDim S8x262144 ![] bcast_S_S8x262144 main_cst_0
  let main_v6 : IVec S8x262144 1 := cmpf .olt main_v4 main_v5
  let main_c_1 : IVec S_ 1 := constantI S_ 1 1#1
  let main_v7 : IVec S_ 1 := (fun x v => Host.reduce IntOp.andi x v reducesTo_S8x262144_S_d0_1 h_S_) main_v6 main_c_1
  let main_v8 : IVec S_ 1 := andi main_v3 main_v7
  let main_v9 : FVec F S8x262144 .f32 := Host.absf main_arg2
  let main_cst_2 : FVec F S_ .f32 := constant S_ .f32 0x7F800000#32
  let main_v10 : FVec F S8x262144 .f32 := broadcastInDim S8x262144 ![] bcast_S_S8x262144 main_cst_2
  let main_v11 : IVec S8x262144 1 := cmpf .olt main_v9 main_v10
  let main_c_3 : IVec S_ 1 := constantI S_ 1 1#1
  let main_v12 : IVec S_ 1 := (fun x v => Host.reduce IntOp.andi x v reducesTo_S8x262144_S_d0_1 h_S_) main_v11 main_c_3
  let main_v13 : IVec S_ 1 := andi main_v8 main_v12
  let main_v14 : FVec F S8x262144 .f32 := Host.absf main_arg3
  let main_cst_4 : FVec F S_ .f32 := constant S_ .f32 0x7F800000#32
  let main_v15 : FVec F S8x262144 .f32 := broadcastInDim S8x262144 ![] bcast_S_S8x262144 main_cst_4
  let main_v16 : IVec S8x262144 1 := cmpf .olt main_v14 main_v15
  fn_part1 (F := F) main_arg4 main_arg5 main_v13 main_v16
-- ==== Kernel.lean ====
abbrev S8x262144 : Shape := ⟨2, ![8, 262144]⟩
abbrev S8x8x262144 : Shape := ⟨3, ![8, 8, 262144]⟩
abbrev S8x8 : Shape := ⟨2, ![8, 8]⟩
abbrev S1x2 : Shape := ⟨2, ![1, 2]⟩
abbrev S8x16384 : Shape := ⟨2, ![8, 16384]⟩
abbrev S8 : Shape := ⟨1, ![8]⟩
abbrev S1x8 : Shape := ⟨2, ![1, 8]⟩
abbrev S1 : Shape := ⟨1, ![1]⟩
abbrev S1x1 : Shape := ⟨2, ![1, 1]⟩
abbrev S2 : Shape := ⟨1, ![2]⟩
abbrev S8x8x4096 : Shape := ⟨3, ![8, 8, 4096]⟩
abbrev S8x8x1 : Shape := ⟨3, ![8, 8, 1]⟩
abbrev S8x8x4095 : Shape := ⟨3, ![8, 8, 4095]⟩
abbrev S_ : Shape := ⟨0, ![]⟩

abbrev nBuf : Space → Nat
  | .hbm => 50
  | .vmem => 17
  | .smem => 0
  | _ => 0

abbrev bufTy : (tb : Table) → Fin (tcTables nBuf tb) → BufTy
  | .hbm, ⟨0, _⟩ => ⟨S8x262144, .f32⟩
  | .hbm, ⟨1, _⟩ => ⟨S8x262144, .f32⟩
  | .hbm, ⟨2, _⟩ => ⟨S8x262144, .f32⟩
  | .hbm, ⟨3, _⟩ => ⟨S8x262144, .f32⟩
  | .hbm, ⟨4, _⟩ => ⟨S8x8x262144, .f32⟩
  | .hbm, ⟨5, _⟩ => ⟨S8x8x262144, .f32⟩
  | .hbm, ⟨6, _⟩ => ⟨S8x8, .i32⟩
  | .hbm, ⟨7, _⟩ => ⟨S1x2, .f32⟩
  | .hbm, ⟨8, _⟩ => ⟨S1x1, .f32⟩
  | .hbm, ⟨9, _⟩ => ⟨S8x8, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x8, .f32⟩
  | .hbm, ⟨35, _⟩ => ⟨S8x8, .f32⟩
  | .hbm, ⟨36, _⟩ => ⟨S8x8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S8x16384, .f32⟩
  | .local _ .vmem, ⟨1, _⟩ => ⟨S8x16384, .f32⟩
  | .local _ .vmem, ⟨2, _⟩ => ⟨S8x16384, .f32⟩
  | .local _ .vmem, ⟨3, _⟩ => ⟨S8x16384, .f32⟩
  | .local _ .vmem, ⟨4, _⟩ => ⟨S8x16384, .f32⟩
  | .local _ .vmem, ⟨5, _⟩ => ⟨S8x16384, .f32⟩
  | .local _ .vmem, ⟨6, _⟩ => ⟨S8x16384, .f32⟩
  | .local _ .vmem, ⟨7, _⟩ => ⟨S8x16384, .f32⟩
  | .local _ .vmem, ⟨8, _⟩ => ⟨S1x2, .f32⟩
  | .local _ .vmem, ⟨9, _⟩ => ⟨S8x8x4096, .f32⟩
  | .local _ .vmem, ⟨10, _⟩ => ⟨S8x8x4096, .f32⟩
  | .local _ .vmem, ⟨11, _⟩ => ⟨S8x8x4096, .f32⟩
  | .local _ .vmem, ⟨12, _⟩ => ⟨S8x8x4096, .f32⟩
  | .local _ .vmem, ⟨13, _⟩ => ⟨S8x8, .i32⟩
  | .local _ .vmem, ⟨14, _⟩ => ⟨S1x1, .f32⟩
  | .local _ .vmem, ⟨15, _⟩ => ⟨S8x8, .f32⟩
  | .local _ .vmem, ⟨16, _⟩ => ⟨S8x8x1, .f32⟩
  | _, _ => ⟨S8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_cst_10 : Ref sig .tc := ⟨.hbm, 46, rfl⟩
abbrev main_call0_v0 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x8x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x2_S1x2_0_0 : ∀ a, (![0, 0] : Fin 2 → Nat) a + S1x2.size a ≤ S1x2.size a
  h_S1x2 : 0 < S1x2.numel
  inb_S8x16384_S8x16384_0_0 : ∀ a, (![0, 0] : Fin 2 → Nat) a + S8x16384.size a ≤ S8x16384.size a
  h_S8x16384 : 0 < S8x16384.numel
  reduces_S8x16384_S8 : S8x16384.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x2_S1x2 : S1x2.ShapeCasts S1x2
  concatenates_S1_S1_S2_d0 : Shape.Concatenates [S1, S1] S2 0
  shapeCasts_S2_S1x2 : S2.ShapeCasts S1x2
  inb_S1x1_S1x1_0_0 : ∀ a, (![0, 0] : Fin 2 → Nat) a + S1x1.size a ≤ S1x1.size a
  h_S1x1 : 0 < S1x1.numel
  inb_S8x8_S8x8_0_0 : ∀ a, (![0, 0] : Fin 2 → Nat) a + S8x8.size a ≤ S8x8.size a
  h_S8x8 : 0 < S8x8.numel
  inb_S8x8x4096_S8x8x4096_0_0_0 : ∀ a, (![0, 0, 0] : Fin 3 → Nat) a + S8x8x4096.size a ≤ S8x8x4096.size a
  h_S8x8x4096 : 0 < S8x8x4096.numel
  natLt_1_32 : 1 < 32
  shapeCasts_S8x8_S8x8x1 : S8x8.ShapeCasts S8x8x1
  broadcasts_S8x8x1_S8x8x4096 : S8x8x1.Broadcasts S8x8x4096
  reduces_S8x8x4096_S8x8 : S8x8x4096.Reduces [2] S8x8
  reduces_S8x8_S8 : S8x8.Reduces [1] S8
  shapeCasts_S1x1_S1x1 : S1x1.ShapeCasts S1x1
  slices_S8x8x4096_o0_0_1_S8x8x4095 : S8x8x4096.Slices ![0, 0, 1] S8x8x4095
  slices_S8x8x4096_o0_0_0_S8x8x4095 : S8x8x4096.Slices ![0, 0, 0] S8x8x4095
  reduces_S8x8x4095_S8x8 : S8x8x4095.Reduces [2] S8x8
  shapeCasts_S8x8_S8x8 : S8x8.ShapeCasts S8x8
  slices_S8x8x4096_o0_0_0_S8x8x1 : S8x8x4096.Slices ![0, 0, 0] S8x8x1
  slices_S8x8x4096_o0_0_4095_S8x8x1 : S8x8x4096.Slices ![0, 0, 4095] S8x8x1
  inb_S8x8x1_S8x8x1_0_0_0 : ∀ a, (![0, 0, 0] : Fin 3 → Nat) a + S8x8x1.size a ≤ S8x8x1.size a
  h_S8x8x1 : 0 < S8x8x1.numel
  reduces_S8x8x1_S8x8 : S8x8x1.Reduces [2] S8x8
  shapeCasts_S8x8x1_S8x8x1 : S8x8x1.ShapeCasts S8x8x1
  slices_S1x2_S1x1_0_0 : S1x2.Slices ![0, 0] S1x1
  shapeCasts_S1x1_S_ : S1x1.ShapeCasts S_
  slices_S1x2_S1x1_0_1 : S1x2.Slices ![0, 1] S1x1
  bcast_S_S8x8 : S_.BroadcastsInDim S8x8 (![] : Fin 0 → Fin S8x8.rank)
  reducesTo_S8x8_S_d0_1 : S8x8.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S8x262144.size a
  hwx0_0 : ∀ i : grid0.Coords, EltTy.bits .f32 = 32 ∨ (Rect.block (s := S8x262144) S8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S8x262144.size a
  hwx0_1 : ∀ i : grid0.Coords, EltTy.bits .f32 = 32 ∨ (Rect.block (s := S8x262144) S8x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16384.size a ≤ S8x262144.size a
  hwx0_2 : ∀ i : grid0.Coords, EltTy.bits .f32 = 32 ∨ (Rect.block (s := S8x262144) S8x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16384.size a ≤ S8x262144.size a
  hwx0_3 : ∀ i : grid0.Coords, EltTy.bits .f32 = 32 ∨ (Rect.block (s := S8x262144) S8x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x8x4096.size a ≤ S8x8x262144.size a
  hwx1_0 : ∀ i : grid1.Coords, EltTy.bits .f32 = 32 ∨ (Rect.block (s := S8x8x262144) S8x8x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x8x4096.size a ≤ S8x8x262144.size a
  hwx1_1 : ∀ i : grid1.Coords, EltTy.bits .f32 = 32 ∨ (Rect.block (s := S8x8x262144) S8x8x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x8.size a ≤ S8x8.size a
  hwx1_2 : ∀ i : grid1.Coords, EltTy.bits .i32 = 32 ∨ (Rect.block (s := S8x8) S8x8.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x8.size a ≤ S8x8.size a
  hwx1_4 : ∀ i : grid1.Coords, EltTy.bits .f32 = 32 ∨ (Rect.block (s := S8x8) S8x8.size (cc1_transform_4 i) (hinb1_4 i)).WholeWords (EltTy.packing .f32)

variable [Facts₀]

abbrev win0_0 : Pipeline.Window sig grid0 :=
  Pipeline.Window.ofSpec (Memref.whole main_arg0) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S8x8x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8x8x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S8x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S8x8.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x262144 : Shape := ⟨2, ![8, 262144]⟩
abbrev S8x8x262144 : Shape := ⟨3, ![8, 8, 262144]⟩
abbrev S8x8 : Shape := ⟨2, ![8, 8]⟩
abbrev S_ : Shape := ⟨0, ![]⟩
abbrev S8x8x1 : Shape := ⟨3, ![8, 8, 1]⟩
abbrev S8x8x262143 : Shape := ⟨3, ![8, 8, 262143]⟩

abbrev nBuf : Space → Nat
  | .hbm => 65
  | .vmem => 0
  | .smem => 0
  | _ => 0

abbrev bufTy : (tb : Table) → Fin (tcTables nBuf tb) → BufTy
  | .hbm, ⟨0, _⟩ => ⟨S8x262144, .f32⟩
  | .hbm, ⟨1, _⟩ => ⟨S8x262144, .f32⟩
  | .hbm, ⟨2, _⟩ => ⟨S8x262144, .f32⟩
  | .hbm, ⟨3, _⟩ => ⟨S8x262144, .f32⟩
  | .hbm, ⟨4, _⟩ => ⟨S8x8x262144, .f32⟩
  | .hbm, ⟨5, _⟩ => ⟨S8x8x262144, .f32⟩
  | .hbm, ⟨6, _⟩ => ⟨S8x8, .i32⟩
  | .hbm, ⟨7, _⟩ => ⟨S8x262144, .f32⟩
  | .hbm, ⟨8, _⟩ => ⟨S8x262144, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x262144, .f32⟩
  | .hbm, ⟨14, _⟩ => ⟨S8x262144, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x8x1, .f32⟩
  | .hbm, ⟨27, _⟩ => ⟨S8x8x262144, .f32⟩
  | .hbm, ⟨28, _⟩ => ⟨S8x8x262144, .f32⟩
  | .hbm, ⟨29, _⟩ => ⟨S8x8x262144, .f32⟩
  | .hbm, ⟨30, _⟩ => ⟨S8x8x262144, .f32⟩
  | .hbm, ⟨31, _⟩ => ⟨S8x8x262144, .f32⟩
  | .hbm, ⟨32, _⟩ => ⟨S8x8x262144, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x8x262143, .f32⟩
  | .hbm, ⟨41, _⟩ => ⟨S8x8x262143, .f32⟩
  | .hbm, ⟨42, _⟩ => ⟨S8x8x262143, .f32⟩
  | .hbm, ⟨43, _⟩ => ⟨S8x8x262143, .f32⟩
  | .hbm, ⟨44, _⟩ => ⟨S_, .f32⟩
  | .hbm, ⟨45, _⟩ => ⟨S8x8, .f32⟩
  | .hbm, ⟨46, _⟩ => ⟨S_, .f32⟩
  | .hbm, ⟨47, _⟩ => ⟨S8x8, .f32⟩
  | .hbm, ⟨48, _⟩ => ⟨S8x8, .f32⟩
  | .hbm, ⟨49, _⟩ => ⟨S_, .f32⟩
  | .hbm, ⟨50, _⟩ => ⟨S_, .f32⟩
  | .hbm, ⟨51, _⟩ => ⟨S8x8, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_cst_14 : Ref sig .tc := ⟨.hbm, 61, rfl⟩
abbrev main_call0_v0 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  reducesTo_S8x262144_S_d0_1 : S8x262144.ReducesTo [0, 1] S_
  h_S_ : 0 < S_.numel
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x262144_0_1_2 : S8x8x1.BroadcastsInDim S8x8x262144 (![0, 1, 2] : Fin 3 → Fin S8x8x262144.rank)
  reducesTo_S8x8x262144_S_d0_1_2 : S8x8x262144.ReducesTo [0, 1, 2] S_
  slices_S8x8x262144_S8x8x262143_0_0_1 : S8x8x262144.Slices ![0, 0, 1] S8x8x262143
  slices_S8x8x262144_S8x8x262143_0_0_0 : S8x8x262144.Slices ![0, 0, 0] S8x8x262143
  reducesTo_S8x8x262143_S8x8_d2 : S8x8x262143.ReducesTo [2] S8x8
  reducesTo_S8x8_S_d0_1 : S8x8.ReducesTo [0, 1] S_

variable [Facts₀]

class Facts : Prop extends Facts₀ where

variable [Facts]
-- ==== Proof.KbDefs.lean ====
/-
  What the two pallas_calls compute, point by point, as functions of the arrays each region finds.

  Region 0 (grid of 16 points, blocks of 8 × 16384 of the four f32[8, 262144] operands) keeps ONE f32[1, 2]
  accumulator: entry (0, 0) the running sum of squares of (operand 0 − operand 2), entry (0, 1) that of
  (operand 1 − operand 3); the first point starts it from the zero splat.

  Region 1 (grid of 64 points, blocks of 8 × 8 × 4096 of the two f32[8, 8, 262144] operands, the i32[8, 8] mask
  whole) keeps three things between points: the f32[1, 1] masked sum of squares, the f32[8, 8] per-row sum of
  squared neighbour differences, and the f32[8, 8, 1] last column of the block just seen, which the next point
  subtracts from its first column.
-/
import proofs.«172243_j249108103965_1_alg».proof.Proof.Gen.Kernel.Launch
import proofs.«172243_j249108103965_1_alg».proof.Proof.Gen.Kernel.Skeleton
import proofs.«172243_j249108103965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Defs
-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks of region 0 at a point, at their literal type. -/
abbrev x0_0 (c : Dev nD) (t : Fin cfg0.N) : Vec F S8x16384 .f32 := iblk0 V c 0 t
abbrev x0_1 (c : Dev nD) (t : Fin cfg0.N) : Vec F S8x16384 .f32 := iblk0 V c 1 t
abbrev x0_2 (c : Dev nD) (t : Fin cfg0.N) : Vec F S8x16384 .f32 := iblk0 V c 2 t
abbrev x0_3 (c : Dev nD) (t : Fin cfg0.N) : Vec F S8x16384 .f32 := iblk0 V c 3 t

/-- The three input blocks of region 1 at a point, at their literal type. -/
abbrev x1_0 (c : Dev nD) (t : Fin cfg1.N) : Vec F S8x8x4096 .f32 := iblk1 V c 0 t
abbrev x1_1 (c : Dev nD) (t : Fin cfg1.N) : Vec F S8x8x4096 .f32 := iblk1 V c 1 t
abbrev x1_2 (c : Dev nD) (t : Fin cfg1.N) : Vec F S8x8 .i32 := iblk1 V c 2 t

/-- Region 0's accumulator after point `n`: the body's sum payload of the point's four blocks over what the
    point before left, the first point over the zero splat it has just stored. -/
def acc0 (c : Dev nD) : (n : ℕ) → n < cfg0.N → Vec F S1x2 .f32
  | 0, hn => k0_pay2 (x0_0 V c ⟨0, hn⟩) (x0_2 V c ⟨0, hn⟩) (x0_1 V c ⟨0, hn⟩) (x0_3 V c ⟨0, hn⟩) (k0_pay1 (F := F))
  | n + 1, hn => k0_pay2 (x0_0 V c ⟨n + 1, hn⟩) (x0_2 V c ⟨n + 1, hn⟩) (x0_1 V c ⟨n + 1, hn⟩) (x0_3 V c ⟨n + 1, hn⟩)
      (acc0 c n (Nat.lt_of_succ_lt hn))

/-- Region 1 after point `n`: the masked sum of squares, the per-row sum of squared neighbour differences, and the
    last column carried to the next point. The first point starts both sums from the zero splats it has just
    stored and adds no boundary term; a later point adds the squared difference between its first column and the
    carried one. -/
def outs1 (c : Dev nD) : (n : ℕ) → n < cfg1.N → Vec F S1x1 .f32 × Vec F S8x8 .f32 × Vec F S8x8x1 .f32
  | 0, hn => (k1_pay5 (x1_0 V c ⟨0, hn⟩) (x1_1 V c ⟨0, hn⟩) (x1_2 V c ⟨0, hn⟩) (k1_pay3 (F := F)),
      k1_pay6 (x1_0 V c ⟨0, hn⟩) (k1_pay4 (F := F)),
      k1_pay2 (x1_0 V c ⟨0, hn⟩))
  | n + 1, hn => (k1_pay5 (x1_0 V c ⟨n + 1, hn⟩) (x1_1 V c ⟨n + 1, hn⟩) (x1_2 V c ⟨n + 1, hn⟩) (outs1 c n (Nat.lt_of_succ_lt hn)).1,
      k1_pay1 (x1_0 V c ⟨n + 1, hn⟩) (outs1 c n (Nat.lt_of_succ_lt hn)).2.2
        (k1_pay6 (x1_0 V c ⟨n + 1, hn⟩) (outs1 c n (Nat.lt_of_succ_lt hn)).2.1),
      k1_pay2 (x1_0 V c ⟨n + 1, hn⟩))

end Defs

end Cert.Kernel.Hand

end
-- ==== Proof.KbR0.lean ====
/-
  Region 0 (the sum-of-squares pallas_call): its proof data, the body's run at every grid point, and what its
  output array holds when the region ends.

  The grid has sixteen points. At point t the body reads block t (8 × 16384) of each of the four operands and adds
  to a 1 × 2 accumulator the two sums of squared differences, operand 0 against operand 2 and operand 1 against
  operand 3; the first point starts the accumulator from zero. The accumulator lives in the output's one staging
  buffer, which is copied to the output array after the last point only; so the array ends at the accumulator
  after point 15.
-/
import proofs.«172243_j249108103965_1_alg».proof.Proof.Gen.Kernel.Launch
import proofs.«172243_j249108103965_1_alg».proof.Proof.Gen.Kernel.Skeleton
import proofs.«172243_j249108103965_1_alg».proof.Proof.Gen.Kernel.Points
import proofs.«172243_j249108103965_1_alg».proof.Proof.KbDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's one branch -/

/-- The condition of the body's `scf.if`, as a function of the grid coordinates: the point's coordinate compared
    with zero, widened, compared with zero again. -/
abbrev isFirst0 (i : grid0.Coords) : Prop :=
  (Scalar.cmpi .ne (Scalar.extui (Scalar.cmpi .eq (BitVec.ofNat 32 (i 0).val) 0#32)) 0#32) = 1#1

/-- Over the sixteen points it holds at the first one only. -/
theorem isFirst0_iff : ∀ t : Fin cfg0.N, isFirst0 (grid0.coords t) ↔ t.val = 0 :=
  (by decide +kernel : ∀ t : Fin grid0.N, isFirst0 (grid0.coords t) ↔ t.val = 0)

/-- A pair of zero offsets is the zero function on the two axes. -/
theorem zeros2 : (![0, 0] : Fin 2 → Nat) = fun _ => 0 := funext fun a => by fin_cases a <;> rfl

/-! ## The body's triple, over any whole staging memrefs -/

set_option maxHeartbeats 1000000 in
/-- At the first point: whatever the output buffer holds, the body stores the zero splat, reads it back, and
    stores the sum payload of the four blocks over it; the inputs are read only. -/
theorem run0_first (c : Dev nD) (i : grid0.Coords)
    (arg1 : Memref sig .tc .vmem S8x16384 .f32) (harg1 : arg1.IsWhole) (arg2 : Memref sig .tc .vmem S8x16384 .f32) (harg2 : arg2.IsWhole)
    (arg3 : Memref sig .tc .vmem S8x16384 .f32) (harg3 : arg3.IsWhole) (arg4 : Memref sig .tc .vmem S8x16384 .f32) (harg4 : arg4.IsWhole)
    (arg5 : Memref sig .tc .vmem S1x2 .f32) (harg5 : arg5.IsWhole) (hc : isFirst0 i)
    (x0 x1 x2 x3 : Vec F S8x16384 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay2 x0 x2 x1 x3 (k0_pay1 (F := F)))) -∗ K ⟨⟩))
      ⊢ wp frame (wpE (defs₀ (F := F)) Variants.none c none) E
          (cc0__recon_kernel i arg1 harg1 arg2 harg2 arg3 harg3 arg4 harg4 arg5 harg5) K := by
  simp only [cc0__recon_kernel_eq_skeleton]; unfold cc0__recon_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  -- the last store covers the buffer, so the buffer reads as that store's payload; each load read the whole of
  -- what its buffer held, the output's the zero splat just stored
  rw [View.read_writes_eq_canon _ _ _ (fun y => ⟨_, List.mem_cons_self, View.mem_set_unit_zero zeros2 inb_S1x2_S1x2_0_0 y⟩)]
  sl_unfold_words
  rw [View.canon_cons_unit_zero (S := S1x2) zeros2]
  simp only [View.readAt_eq_ld, Memref.IsWhole.read_unread, View.ld_unit_zero (S := S8x16384) zeros2,
    View.readCov_unit_zero (S := S1x2) _ zeros2]

set_option maxHeartbeats 1000000 in
/-- At a later point: the output buffer holding `xo`, the body stores the sum payload of the four blocks over
    `xo`; the inputs are read only. -/
theorem run0_later (c : Dev nD) (i : grid0.Coords)
    (arg1 : Memref sig .tc .vmem S8x16384 .f32) (harg1 : arg1.IsWhole) (arg2 : Memref sig .tc .vmem S8x16384 .f32) (harg2 : arg2.IsWhole)
    (arg3 : Memref sig .tc .vmem S8x16384 .f32) (harg3 : arg3.IsWhole) (arg4 : Memref sig .tc .vmem S8x16384 .f32) (harg4 : arg4.IsWhole)
    (arg5 : Memref sig .tc .vmem S1x2 .f32) (harg5 : arg5.IsWhole) (hc : ¬isFirst0 i)
    (x0 x1 x2 x3 : Vec F S8x16384 .f32) (xo : Vec F S1x2 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xo
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay2 x0 x2 x1 x3 xo)) -∗ K ⟨⟩))
      ⊢ wp frame (wpE (defs₀ (F := F)) Variants.none c none) E
          (cc0__recon_kernel i arg1 harg1 arg2 harg2 arg3 harg3 arg4 harg4 arg5 harg5) K := by
  simp only [cc0__recon_kernel_eq_skeleton]; unfold cc0__recon_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  -- one covering store: the buffer reads as its payload, every load having read the whole of what its buffer held
  rw [View.read_writes_eq_canon _ _ _ (fun y => ⟨_, List.mem_cons_self, View.mem_set_unit_zero zeros2 inb_S1x2_S1x2_0_0 y⟩)]
  sl_unfold_words
  rw [View.canon_cons_unit_zero (S := S1x2) zeros2]
  simp only [View.readAt_eq_ld, Memref.IsWhole.read_unread, View.ld_unit_zero (S := S8x16384) zeros2,
    View.ld_unit_zero (S := S1x2) zeros2]

section R0
variable (V : (c : Dev nD) → (b : Ref sig .tc) → Buf (Elt F) ((c : Thread nD τ).loc b))

/-! ## What the accumulator is at a point -/

/-- At the first point the accumulator is the sum payload of the point's blocks over the zero splat. -/
theorem acc0_first (c : Dev nD) (t : Fin cfg0.N) (h0 : t.val = 0) :
    acc0 V c t.val t.isLt = k0_pay2 (x0_0 V c t) (x0_2 V c t) (x0_1 V c t) (x0_3 V c t) (k0_pay1 (F := F)) := by
  obtain ⟨n, hn⟩ := t
  cases n with
  | zero => rfl
  | succ n => exact absurd h0 (Nat.succ_ne_zero n)

/-- At a later point it is the sum payload of the point's blocks over the accumulator of the point before. -/
theorem acc0_later (c : Dev nD) (t : Fin cfg0.N) (h0 : ¬t.val = 0) :
    acc0 V c t.val t.isLt = k0_pay2 (x0_0 V c t) (x0_2 V c t) (x0_1 V c t) (x0_3 V c t)
      (acc0 V c (t.val - 1) (Nat.lt_of_le_of_lt (Nat.sub_le _ _) t.isLt)) := by
  obtain ⟨n, hn⟩ := t
  cases n with
  | zero => exact absurd rfl h0
  | succ n => rfl

/-! ## The proof data -/

/-- The proof data of pipeline 0 on core `c`: the arrays as the region finds them; after the body at point `t` each
    input's buffer still at its block, the output's at the accumulator `acc0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0 V c t.val t.isLt := by dsimp only [dat0]

/-! ## What the body finds in each buffer -/

/-- An input's buffer holds its block at every point: fetched there it holds what the fetch brought, and every
    point fetches; the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- At a later point the output's buffer holds the accumulator of the point before: the buffer is written back
    at the last point only, so nothing touched it in between. -/
theorem before0_4_later (c : Dev nD) (t : Fin cfg0.N) (h0 : ¬t.val = 0) (d) :
    (dat0 V c).before 4 t d = acc0 V c (t.val - 1) (Nat.lt_of_le_of_lt (Nat.sub_le _ _) t.isLt) := by
  have hN : t.val < 16 := lt_of_lt_of_eq t.isLt (show cfg0.N = 16 from N_0)
  rw [Dat.before_out_kept _ 4 rfl t h0
    (Bool.eq_false_iff.mpr fun h => by have := (flush0_4 _).mp h; dsimp only at this; omega)
    (fun _ => rfl) (fun _ _ => rfl)]
  dsimp only [dat0]

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The inputs' buffers hold their blocks. At the first point the branch is taken and the
    output's buffer, whatever it holds, ends at the sum payload over the zero splat; at a later point the branch
    is not taken, the output's buffer holds the accumulator of the point before and ends at the sum payload over
    it. Either way that is the accumulator at this point. The invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_first V c t h0]
    iintro ⟨HΦ, Ho, ⟨%d0, H0⟩, ⟨%d1, H1⟩, ⟨%d2, H2⟩, ⟨%d3, H3⟩, ⟨%d4, H4⟩⟩
    iapply (run0_first c (grid0.coords t) _ _ _ _ _ _ _ _ _ _ ((isFirst0_iff t).mpr h0)
      (x0_0 V c t) (x0_1 V c t) (x0_2 V c t) (x0_3 V c t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_later V c t h0]
    simp only [before0_4_later V c t h0]
    iintro ⟨HΦ, Ho, ⟨%d0, H0⟩, ⟨%d1, H1⟩, ⟨%d2, H2⟩, ⟨%d3, H3⟩, ⟨%d4, H4⟩⟩
    iapply (run0_later c (grid0.coords t) _ _ _ _ _ _ _ _ _ _ (fun h => h0 ((isFirst0_iff t).mp h))
      (x0_0 V c t) (x0_1 V c t) (x0_2 V c t) (x0_3 V c t)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The obligation the pipeline's loop asks of the body, at every point: the five windows' buffers written out one
    by one, it is `sound_body0`. -/
theorem body_obligation0 (c : Dev nD) : BodyObligation (dat0 (F := F) V c) (defs₀ (F := F)) Variants.none () Set.univ := fun t => by
  rw [bigSep_W0, bigSep_W0]
  exact sound_body0 V c t

/-! ## The output array when the region ends -/

/-- The output window's block index is (0, 0) at every point: its one block is the whole array. -/
theorem index0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- So reading the output array through that block reads the array. -/
theorem read_blk0_4 (t : Fin cfg0.N) (G : Vec F S1x2 .f32) : ((cfg0.win 4).blk t).view.read (Elt F) G = G := by
  obtain ⟨e0, e1⟩ := index0_4 t
  funext j
  show G (((cfg0.win 4).blk t).view.emb j) = G j
  refine congrArg G ?_
  funext a; apply Fin.ext
  match a with
  | ⟨0, _⟩ => show win0_4.index t (0 : Fin 2) * 1 + 1 * (j 0).val = (j 0).val; omega
  | ⟨1, _⟩ => show win0_4.index t (1 : Fin 2) * 2 + 1 * (j 1).val = (j 1).val; omega

/-- and every index of the array lies in it. -/
theorem mem_blk0_4 (t : Fin cfg0.N) (i : S1x2.Idx) : i ∈ ((cfg0.win 4).blk t).view.set := by
  obtain ⟨e0, e1⟩ := index0_4 t
  show i ∈ ((View.whole main_v0).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    have hi : (i 0).val < 1 := (i 0).isLt
    omega
  | ⟨1, _⟩ =>
    show win0_4.index t (1 : Fin 2) * 2 ≤ (i 1).val ∧ (i 1).val < win0_4.index t (1 : Fin 2) * 2 + 2
    have hi : (i 1).val < 2 := (i 1).isLt
    omega

/-- When the region ends its output array holds the accumulator after the last point. -/
theorem final0 (c : Dev nD) : (dat0 V c).arrAt 4 cfg0.N = (acc0 V c 15 (by decide) : Vec F S1x2 .f32) := by
  refine (dat0 V c).arrAt_eq_of_cover 4 (acc0 V c 15 (by decide)) (fun t hf => ?_)
    (fun i => ⟨⟨15, by decide⟩, (flush0_4 _).mpr rfl, mem_blk0_4 _ i⟩)
  -- the one point that writes back is the last; it writes what the body left there, the accumulator at 15
  have hN : t.val < 16 := lt_of_lt_of_eq t.isLt (show cfg0.N = 16 from N_0)
  have ht : t.val = 15 := by have := (flush0_4 t).mp hf; omega
  obtain ⟨n, hn⟩ := t
  dsimp only at ht
  subst ht
  show (cfg0.win 4).cut (grid0.coords ⟨15, hn⟩) ((dat0 V c).after 4 ⟨15, hn⟩) = _
  rw [after0_4]
  exact (read_blk0_4 ⟨15, hn⟩ (acc0 V c 15 hn)).symm

end R0

end Cert.Kernel.Hand

end
-- ==== Proof.KbR1.lean ====
/-
  Region 1 (the masked-difference and smoothness pallas_call): its proof data with the last column carried in
  scratch between grid points, the body's run at every grid point, and what its two output arrays hold when the
  region ends.
-/
import proofs.«172243_j249108103965_1_alg».proof.Proof.Gen.Kernel.Launch
import proofs.«172243_j249108103965_1_alg».proof.Proof.Gen.Kernel.Skeleton
import proofs.«172243_j249108103965_1_alg».proof.Proof.Gen.Kernel.Points
import proofs.«172243_j249108103965_1_alg».proof.Proof.KbDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-- The body's first conditional (it zeroes both sums) asks whether the grid coordinate is 0 — -/
abbrev atFirst1 (i : grid1.Coords) : Prop :=
  (Scalar.cmpi .ne (Scalar.extui (Scalar.cmpi .eq (BitVec.ofNat 32 (i 0).val) 0#32)) 0#32) = 1#1
/-- which over the grid's 64 points holds at the first one only. -/
theorem atFirst1_iff : ∀ t : Fin cfg1.N, atFirst1 (grid1.coords t) ↔ t.val = 0 :=
  (by decide +kernel : ∀ t : Fin grid1.N, atFirst1 (grid1.coords t) ↔ t.val = 0)
/-- Its second conditional (it adds the boundary term) asks whether the coordinate is positive — -/
abbrev atLater1 (i : grid1.Coords) : Prop :=
  (Scalar.cmpi .ne (Scalar.extui (Scalar.cmpi .sgt (BitVec.ofNat 32 (i 0).val) 0#32)) 0#32) = 1#1
/-- which holds at every point but the first. -/
theorem atLater1_iff : ∀ t : Fin cfg1.N, atLater1 (grid1.coords t) ↔ t.val ≠ 0 :=
  (by decide +kernel : ∀ t : Fin grid1.N, atLater1 (grid1.coords t) ↔ t.val ≠ 0)

/-- The zero offsets of a whole-buffer access of rank 2 and of rank 3, as constant functions. -/
private theorem zeroOff2 : (![0, 0] : Fin 2 → Nat) = fun _ => 0 := funext fun a => by fin_cases a <;> rfl
private theorem zeroOff3 : (![0, 0, 0] : Fin 3 → Nat) = fun _ => 0 := funext fun a => by fin_cases a <;> rfl

/-- A buffer whose last store went through the whole-shape rectangle reads that store's payload, whatever was stored
    before and whatever it held. -/
private theorem read_after_whole_store {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

set_option maxHeartbeats 1000000 in
/-- The body at the first point, on any whole memrefs: with the two input blocks `e`, `tg` and the mask `mk` in
    their buffers and anything in the two sums' buffers and the carry, it leaves the masked sum of squares started
    from the zero splat, the neighbour sum started from the zero splat, and the last column of `e`. -/
theorem runFirst1 (c : Dev nD) (i : grid1.Coords)
    (arg1 : Memref sig .tc .vmem S8x8x4096 .f32) (harg1 : arg1.IsWhole)
    (arg2 : Memref sig .tc .vmem S8x8x4096 .f32) (harg2 : arg2.IsWhole)
    (arg3 : Memref sig .tc .vmem S8x8 .i32) (harg3 : arg3.IsWhole)
    (arg4 : Memref sig .tc .vmem S1x1 .f32) (harg4 : arg4.IsWhole)
    (arg5 : Memref sig .tc .vmem S8x8 .f32) (harg5 : arg5.IsWhole)
    (arg6 : Memref sig .tc .vmem S8x8x1 .f32) (harg6 : arg6.IsWhole)
    (hc0 : atFirst1 i) (hc1 : ¬atLater1 i)
    (e tg : Vec F S8x8x4096 .f32) (mk : Vec F S8x8 .i32) (E : Set ℕ) (K : PUnit → sProp 𝕄) :
    iprop(owns (c : Thread nD τ) arg1 fullShare e ∗ owns (c : Thread nD τ) arg2 fullShare tg ∗ owns (c : Thread nD τ) arg3 fullShare mk
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare e ∗ owns (c : Thread nD τ) arg2 fullShare tg ∗ owns (c : Thread nD τ) arg3 fullShare mk
            ∗ owns (c : Thread nD τ) arg4 fullShare (k1_pay5 e tg mk (k1_pay3 (F := F)))
            ∗ owns (c : Thread nD τ) arg5 fullShare (k1_pay6 e (k1_pay4 (F := F)))
            ∗ owns (c : Thread nD τ) arg6 fullShare (k1_pay2 e)) -∗ K ⟨⟩))
      ⊢ wp frame (wpE (defs₀ (F := F)) Variants.none c none) E (cc1__ifsmooth_kernel i arg1 harg1 arg2 harg2 arg3 harg3 arg4 harg4 arg5 harg5 arg6 harg6) K := by
  simp only [cc1__ifsmooth_kernel_eq_skeleton]; unfold cc1__ifsmooth_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  isplitl [H5]
  · iexists _; isplitr
    swap; · iexact H5
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  iexists _; isplitr
  swap; · iexact H6
  ipureintro
  rw [read_after_whole_store _ _ zeroOff3]
  sl_unfold_words
  simp only [View.readAt_eq_ld, harg1.read_unread, harg2.read_unread, harg3.read_unread, harg4.read_unread, harg5.read_unread, harg6.read_unread,
    View.ld_unit_zero (S := S8x8x4096) zeroOff3, View.ld_unit_zero (S := S8x8) zeroOff2, View.ld_unit_zero (S := S1x1) zeroOff2, View.ld_unit_zero (S := S8x8x1) zeroOff3,
    View.readCov_unit_zero (S := S1x1) _ zeroOff2, View.readCov_unit_zero (S := S8x8) _ zeroOff2, View.readCov_unit_zero (S := S8x8x1) _ zeroOff3]

set_option maxHeartbeats 1000000 in
/-- The body at a later point: with the sums' buffers at `s`, `ms` and the carry at `cy`, it leaves the masked sum
    continued from `s`, the neighbour sum continued from `ms` with the boundary term against `cy` added, and the
    last column of `e`. -/
theorem runLater1 (c : Dev nD) (i : grid1.Coords)
    (arg1 : Memref sig .tc .vmem S8x8x4096 .f32) (harg1 : arg1.IsWhole)
    (arg2 : Memref sig .tc .vmem S8x8x4096 .f32) (harg2 : arg2.IsWhole)
    (arg3 : Memref sig .tc .vmem S8x8 .i32) (harg3 : arg3.IsWhole)
    (arg4 : Memref sig .tc .vmem S1x1 .f32) (harg4 : arg4.IsWhole)
    (arg5 : Memref sig .tc .vmem S8x8 .f32) (harg5 : arg5.IsWhole)
    (arg6 : Memref sig .tc .vmem S8x8x1 .f32) (harg6 : arg6.IsWhole)
    (hc0 : ¬atFirst1 i) (hc1 : atLater1 i)
    (e tg : Vec F S8x8x4096 .f32) (mk : Vec F S8x8 .i32) (s : Vec F S1x1 .f32) (ms : Vec F S8x8 .f32) (cy : Vec F S8x8x1 .f32)
    (E : Set ℕ) (K : PUnit → sProp 𝕄) :
    iprop(owns (c : Thread nD τ) arg1 fullShare e ∗ owns (c : Thread nD τ) arg2 fullShare tg ∗ owns (c : Thread nD τ) arg3 fullShare mk
        ∗ owns (c : Thread nD τ) arg4 fullShare s ∗ owns (c : Thread nD τ) arg5 fullShare ms ∗ owns (c : Thread nD τ) arg6 fullShare cy
        ∗ (iprop(owns (c : Thread nD τ) arg1 fullShare e ∗ owns (c : Thread nD τ) arg2 fullShare tg ∗ owns (c : Thread nD τ) arg3 fullShare mk
            ∗ owns (c : Thread nD τ) arg4 fullShare (k1_pay5 e tg mk s)
            ∗ owns (c : Thread nD τ) arg5 fullShare (k1_pay1 e cy (k1_pay6 e ms))
            ∗ owns (c : Thread nD τ) arg6 fullShare (k1_pay2 e)) -∗ K ⟨⟩))
      ⊢ wp frame (wpE (defs₀ (F := F)) Variants.none c none) E (cc1__ifsmooth_kernel i arg1 harg1 arg2 harg2 arg3 harg3 arg4 harg4 arg5 harg5 arg6 harg6) K := by
  simp only [cc1__ifsmooth_kernel_eq_skeleton]; unfold cc1__ifsmooth_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  isplitl [H5]
  · iexists _; isplitr
    swap; · iexact H5
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  iexists _; isplitr
  swap; · iexact H6
  ipureintro
  rw [read_after_whole_store _ _ zeroOff3]
  sl_unfold_words
  simp only [View.readAt_eq_ld, harg1.read_unread, harg2.read_unread, harg3.read_unread, harg4.read_unread, harg5.read_unread, harg6.read_unread,
    View.ld_unit_zero (S := S8x8x4096) zeroOff3, View.ld_unit_zero (S := S8x8) zeroOff2, View.ld_unit_zero (S := S1x1) zeroOff2, View.ld_unit_zero (S := S8x8x1) zeroOff3,
    View.readCov_unit_zero (S := S1x1) _ zeroOff2, View.readCov_unit_zero (S := S8x8) _ zeroOff2, View.readCov_unit_zero (S := S8x8x1) _ zeroOff3]

/-- The scratch operand that carries the last column from one point to the next. -/
abbrev carryM : Memref sig .tc .vmem S8x8x1 .f32 := Memref.whole cc1_scratch0

/-- The nine staging buffers of the other pallas_call, each whole at some contents: scoped buffers this region never
    touches. -/
def otherStaging1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f))

/-- What the launch hands the region gives those nine buffers, the carry scratch owned at some contents, and the
    generator register at some state; -/
theorem PhiA1_open (c : Dev nD) :
    (Pipeline.ΦA spec1 c : sProp 𝕄)
      ⊢ iprop(otherStaging1 (F := F) c ∗ (∃ d, owns (c : Thread nD τ) carryM fullShare d) ∗ (∃ r, prngReg c r)) := by
  unfold Pipeline.ΦA otherStaging1; rw [scopedRest1_eq]; simp only [carryM, owns_whole]
  iintro ⟨⟨A0, A1, A2, A3, A4, A5, A6, A7, A8, HS⟩, Hg⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [HS]; · iexact HS
  iexact Hg

/-- and those give it back; -/
theorem PhiA1_close (c : Dev nD) :
    iprop(otherStaging1 (F := F) c ∗ (∃ d, owns (c : Thread nD τ) carryM fullShare d) ∗ (∃ r, prngReg c r))
      ⊢ (Pipeline.ΦA spec1 c : sProp 𝕄) := by
  unfold Pipeline.ΦA otherStaging1; rw [scopedRest1_eq]; simp only [carryM, owns_whole]
  iintro ⟨⟨A0, A1, A2, A3, A4, A5, A6, A7, A8⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  iexact Hg

/-- so the two are one proposition. -/
theorem PhiA1_eq (c : Dev nD) :
    (Pipeline.ΦA spec1 c : sProp 𝕄)
      = iprop(otherStaging1 (F := F) c ∗ (∃ d, owns (c : Thread nD τ) carryM fullShare d) ∗ (∃ r, prngReg c r)) :=
  BI.equiv_iff.mp ⟨PhiA1_open c, PhiA1_close c⟩

/-- The region invariant before position `n`: before the first point every scoped buffer that is no staging
    buffer of this call is held at some contents (the library's `ΦA`); afterwards the same, except that the carry
    scratch holds exactly the last column of the block the point before saw. -/
def PhiS1 (c : Dev nD) : (n : ℕ) → n ≤ cfg1.N → sProp 𝕄
  | 0, _ => Pipeline.ΦA spec1 c
  | n + 1, hn => iprop(otherStaging1 (F := F) c ∗ owns (c : Thread nD τ) carryM fullShare ((outs1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n`: the carry at that point's last column. -/
theorem PhiS1_succ (c : Dev nD) (n : ℕ) (hn : n < cfg1.N) :
    PhiS1 V c (n + 1) hn = iprop(otherStaging1 (F := F) c ∗ owns (c : Thread nD τ) carryM fullShare ((outs1 V c n hn).2.2) ∗ (∃ r, prngReg c r)) := rfl

/-- Before a point that is not the first: the carry at the last column of the point before. -/
theorem PhiS1_pos (c : Dev nD) (n : ℕ) (h : n ≤ cfg1.N) (hz : n ≠ 0) :
    PhiS1 V c n h = iprop(otherStaging1 (F := F) c ∗ owns (c : Thread nD τ) carryM fullShare ((outs1 V c (n - 1) (by omega)).2.2) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outs1 V c t.val t.isLt).1
    | ⟨4, _⟩ => (outs1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outs1 V c t.val t.isLt).1 := by dsimp only [dat1]
theorem after1_4 (c : Dev nD) (t : Fin cfg1.N) : (dat1 V c).after 4 t = (outs1 V c t.val t.isLt).2.1 := by dsimp only [dat1]

/-- Each input's current staging buffer holds its block at every point, fetched there or not: the two operand blocks
    are fetched at every point, the mask (whose block index never moves) at the first point only and left in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- At a later point each output's staging buffer holds what the body left at the point before: neither is written
    back before the last point. -/
theorem before1_3_later (c : Dev nD) (t : Fin cfg1.N) (h0 : t.val ≠ 0) (d) :
    (dat1 V c).before 3 t d = (outs1 V c (t.val - 1) (Nat.lt_of_le_of_lt (Nat.sub_le _ _) t.isLt)).1 := by
  have hN : t.val < 64 := lt_of_lt_of_eq t.isLt (show cfg1.N = 64 from N_1)
  rw [Dat.before_out_kept _ 3 rfl t h0 (Bool.eq_false_iff.mpr fun h => by have := (flush1_3 _).mp h; dsimp only at this; omega)
    (fun _ => rfl) (fun _ _ => rfl)]
  dsimp only [dat1]
theorem before1_4_later (c : Dev nD) (t : Fin cfg1.N) (h0 : t.val ≠ 0) (d) :
    (dat1 V c).before 4 t d = (outs1 V c (t.val - 1) (Nat.lt_of_le_of_lt (Nat.sub_le _ _) t.isLt)).2.1 := by
  have hN : t.val < 64 := lt_of_lt_of_eq t.isLt (show cfg1.N = 64 from N_1)
  rw [Dat.before_out_kept _ 4 rfl t h0 (Bool.eq_false_iff.mpr fun h => by have := (flush1_4 _).mp h; dsimp only at this; omega)
    (fun _ => rfl) (fun _ _ => rfl)]
  dsimp only [dat1]

/-- The two sums and the carry after the first point -/
theorem outs1_first (c : Dev nD) (t : Fin cfg1.N) (h : t.val = 0) :
    outs1 V c t.val t.isLt = (k1_pay5 (x1_0 V c t) (x1_1 V c t) (x1_2 V c t) (k1_pay3 (F := F)),
      k1_pay6 (x1_0 V c t) (k1_pay4 (F := F)), k1_pay2 (x1_0 V c t)) := by
  obtain ⟨n, hn⟩ := t
  cases n with
  | zero => rfl
  | succ n => exact absurd h (Nat.succ_ne_zero n)

/-- and after a later one, over what the point before left. -/
theorem outs1_later (c : Dev nD) (t : Fin cfg1.N) (h : t.val ≠ 0) :
    outs1 V c t.val t.isLt = (k1_pay5 (x1_0 V c t) (x1_1 V c t) (x1_2 V c t) (outs1 V c (t.val - 1) (Nat.lt_of_le_of_lt (Nat.sub_le _ _) t.isLt)).1,
      k1_pay1 (x1_0 V c t) (outs1 V c (t.val - 1) (Nat.lt_of_le_of_lt (Nat.sub_le _ _) t.isLt)).2.2
        (k1_pay6 (x1_0 V c t) (outs1 V c (t.val - 1) (Nat.lt_of_le_of_lt (Nat.sub_le _ _) t.isLt)).2.1),
      k1_pay2 (x1_0 V c t)) := by
  obtain ⟨n, hn⟩ := t
  cases n with
  | zero => exact absurd rfl h
  | succ n => rfl

/-- Each window's current staging memref at point `t`, at its literal type, and its wholeness. -/
abbrev buf1_0 (t : Fin cfg1.N) : Memref sig .tc .vmem S8x8x4096 .f32 := win1_0.stage (cfg1.slots t 0)
abbrev bufWhole1_0 (t : Fin cfg1.N) : (buf1_0 t).IsWhole := hstage1_0 ((cfg1.slots t 0).cast nbuf1_0)
abbrev buf1_1 (t : Fin cfg1.N) : Memref sig .tc .vmem S8x8x4096 .f32 := win1_1.stage (cfg1.slots t 1)
abbrev bufWhole1_1 (t : Fin cfg1.N) : (buf1_1 t).IsWhole := hstage1_1 ((cfg1.slots t 1).cast nbuf1_1)
abbrev buf1_2 (t : Fin cfg1.N) : Memref sig .tc .vmem S8x8 .i32 := win1_2.stage (cfg1.slots t 2)
abbrev bufWhole1_2 (t : Fin cfg1.N) : (buf1_2 t).IsWhole := hstage1_2 ((cfg1.slots t 2).cast nbuf1_2)
abbrev buf1_3 (t : Fin cfg1.N) : Memref sig .tc .vmem S1x1 .f32 := win1_3.stage (cfg1.slots t 3)
abbrev bufWhole1_3 (t : Fin cfg1.N) : (buf1_3 t).IsWhole := hstage1_3 ((cfg1.slots t 3).cast nbuf1_3)
abbrev buf1_4 (t : Fin cfg1.N) : Memref sig .tc .vmem S8x8 .f32 := win1_4.stage (cfg1.slots t 4)
abbrev bufWhole1_4 (t : Fin cfg1.N) : (buf1_4 t).IsWhole := hstage1_4 ((cfg1.slots t 4).cast nbuf1_4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d))
    ∗ (∃ d, owns (c : Thread nD τ) (buf1_3 t) fullShare ((dat1 V c).before 3 t d))
    ∗ (∃ d, owns (c : Thread nD τ) (buf1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (buf1_0 t) fullShare ((dat1 V c).after 0 t)
    ∗ owns (c : Thread nD τ) (buf1_1 t) fullShare ((dat1 V c).after 1 t)
    ∗ owns (c : Thread nD τ) (buf1_2 t) fullShare ((dat1 V c).after 2 t)
    ∗ owns (c : Thread nD τ) (buf1_3 t) fullShare ((dat1 V c).after 3 t)
    ∗ owns (c : Thread nD τ) (buf1_4 t) fullShare ((dat1 V c).after 4 t))

set_option maxHeartbeats 1600000 in
/-- The body at any point. The three inputs' buffers hold their blocks. At the first point the invariant hands the
    carry at anything and the sums' buffers hold anything; at a later point the carry and the sums' buffers hold what
    the point before left. Either way the run applies, and the carry goes back into the invariant at this point's
    last column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases hz : t.val = 0
  · rw [outs1_first V c t hz]
    dsimp only
    rw [PhiS1_castSucc V c t, PhiS1_zero V c _ _ hz, PhiA1_eq]
    iintro ⟨⟨HR, HS, Hg⟩, Ho, ⟨%d0, H0⟩, ⟨%d1, H1⟩, ⟨%d2, H2⟩, ⟨%d3, H3⟩, ⟨%d4, H4⟩⟩
    iapply (runFirst1 c (grid1.coords t) (buf1_0 t) (bufWhole1_0 t) (buf1_1 t) (bufWhole1_1 t) (buf1_2 t) (bufWhole1_2 t)
      (buf1_3 t) (bufWhole1_3 t) (buf1_4 t) (bufWhole1_4 t) carryM (Memref.isWhole_whole _)
      ((atFirst1_iff t).mpr hz) (fun h => (atLater1_iff t).mp h hz) (x1_0 V c t) (x1_1 V c t) (x1_2 V c t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexact H4
  · rw [outs1_later V c t hz]
    dsimp only
    simp only [before1_3_later V c t hz, before1_4_later V c t hz]
    rw [PhiS1_castSucc V c t, PhiS1_pos V c _ _ hz]
    iintro ⟨⟨HR, HS, Hg⟩, Ho, ⟨%d0, H0⟩, ⟨%d1, H1⟩, ⟨%d2, H2⟩, ⟨%d3, H3⟩, ⟨%d4, H4⟩⟩
    iapply (runLater1 c (grid1.coords t) (buf1_0 t) (bufWhole1_0 t) (buf1_1 t) (bufWhole1_1 t) (buf1_2 t) (bufWhole1_2 t)
      (buf1_3 t) (bufWhole1_3 t) (buf1_4 t) (bufWhole1_4 t) carryM (Memref.isWhole_whole _)
      (fun h => hz ((atFirst1_iff t).mp h)) ((atLater1_iff t).mpr hz) (x1_0 V c t) (x1_1 V c t) (x1_2 V c t)
      (outs1 V c (t.val - 1) (Nat.lt_of_le_of_lt (Nat.sub_le _ _) t.isLt)).1
      (outs1 V c (t.val - 1) (Nat.lt_of_le_of_lt (Nat.sub_le _ _) t.isLt)).2.1
      (outs1 V c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carry's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HR, HS, Hg⟩
  isplitl [HR]; · iexact HR
  isplitl [HS]; · iexists _; iexact HS
  iexact Hg

/-- The masked sum of squares and the neighbour sums after the last point, as contents of the two result arrays
    (each array is one block). -/
abbrev ifsumEnd1 (c : Dev nD) : Buf (Elt F) ((c : Thread nD τ).loc main_v1_0) := (outs1 V c 63 (by decide)).1
abbrev modesumEnd1 (c : Dev nD) : Buf (Elt F) ((c : Thread nD τ).loc main_v1_1) := (outs1 V c 63 (by decide)).2.1

/-- The last point of the grid. -/
abbrev lastPt1 : Fin cfg1.N := ⟨63, by decide⟩

/-- The one write-back of each result, at the last point, writes the sum after that point: block (0, 0) of the array,
    read at zero offsets, is the array. -/
theorem flushed1_3_eq (c : Dev nD) (t : Fin cfg1.N) (hf : (cfg1.win 3).flush t = true) :
    (dat1 V c).flushed 3 t = ((cfg1.win 3).blk t).view.read (Elt F) (ifsumEnd1 V c) := by
  have hN : cfg1.N = 64 := N_1
  have h63 : t.val = 63 := by have := (flush1_3 t).mp hf; have := t.isLt; omega
  obtain rfl : t = lastPt1 := Fin.ext h63
  show (cfg1.win 3).cut (grid1.coords lastPt1) ((dat1 V c).after 3 lastPt1) = _
  rw [after1_3]
  have hz' : (fun a => win1_3.index lastPt1 a * main_v1_0.ty.shape.size a) = fun _ => 0 := funext fun a => by fin_cases a <;> decide
  exact (Memref.read_access_unit_zero (Elt F) main_v1_0 hz' (fun a => by rw [congrFun hz' a]; simp) (ifsumEnd1 V c)).symm

theorem flushed1_4_eq (c : Dev nD) (t : Fin cfg1.N) (hf : (cfg1.win 4).flush t = true) :
    (dat1 V c).flushed 4 t = ((cfg1.win 4).blk t).view.read (Elt F) (modesumEnd1 V c) := by
  have hN : cfg1.N = 64 := N_1
  have h63 : t.val = 63 := by have := (flush1_4 t).mp hf; have := t.isLt; omega
  obtain rfl : t = lastPt1 := Fin.ext h63
  show (cfg1.win 4).cut (grid1.coords lastPt1) ((dat1 V c).after 4 lastPt1) = _
  rw [after1_4]
  have hz' : (fun a => win1_4.index lastPt1 a * main_v1_1.ty.shape.size a) = fun _ => 0 := funext fun a => by fin_cases a <;> decide
  exact (Memref.read_access_unit_zero (Elt F) main_v1_1 hz' (fun a => by rw [congrFun hz' a]; simp) (modesumEnd1 V c)).symm

/-- When the region ends its two output arrays hold the two sums after the last point. -/
theorem final1_3 (c : Dev nD) : (dat1 V c).arrAt 3 cfg1.N = ((outs1 V c 63 (by decide)).1 : Vec F S1x1 .f32) :=
  (dat1 V c).arrAt_eq_of_cover 3 (ifsumEnd1 V c) (flushed1_3_eq V c) fun i =>
    ⟨lastPt1, (flush1_3 lastPt1).mpr rfl, by
      show i ∈ ((View.whole main_v1_0).slice (win1_3.rect lastPt1)).set
      rw [View.set_slice_whole, Rect.mem_set_unit]
      intro a
      have h0 : (i 0 : Nat) < 1 := (i 0).isLt
      have h1 : (i 1 : Nat) < 1 := (i 1).isLt
      match a with
      | ⟨0, _⟩ => show win1_3.index lastPt1 0 * win1_3.size 0 ≤ (i 0 : Nat) ∧ (i 0 : Nat) < win1_3.index lastPt1 0 * win1_3.size 0 + win1_3.xsize (grid1.coords lastPt1) 0
                  rw [show win1_3.index lastPt1 0 * win1_3.size 0 = 0 from by decide +kernel, show win1_3.xsize (grid1.coords lastPt1) 0 = 1 from by decide +kernel]; omega
      | ⟨1, _⟩ => show win1_3.index lastPt1 1 * win1_3.size 1 ≤ (i 1 : Nat) ∧ (i 1 : Nat) < win1_3.index lastPt1 1 * win1_3.size 1 + win1_3.xsize (grid1.coords lastPt1) 1
                  rw [show win1_3.index lastPt1 1 * win1_3.size 1 = 0 from by decide +kernel, show win1_3.xsize (grid1.coords lastPt1) 1 = 1 from by decide +kernel]; omega⟩
theorem final1_4 (c : Dev nD) : (dat1 V c).arrAt 4 cfg1.N = ((outs1 V c 63 (by decide)).2.1 : Vec F S8x8 .f32) :=
  (dat1 V c).arrAt_eq_of_cover 4 (modesumEnd1 V c) (flushed1_4_eq V c) fun i =>
    ⟨lastPt1, (flush1_4 lastPt1).mpr rfl, by
      show i ∈ ((View.whole main_v1_1).slice (win1_4.rect lastPt1)).set
      rw [View.set_slice_whole, Rect.mem_set_unit]
      intro a
      have h0 : (i 0 : Nat) < 8 := (i 0).isLt
      have h1 : (i 1 : Nat) < 8 := (i 1).isLt
      match a with
      | ⟨0, _⟩ => show win1_4.index lastPt1 0 * win1_4.size 0 ≤ (i 0 : Nat) ∧ (i 0 : Nat) < win1_4.index lastPt1 0 * win1_4.size 0 + win1_4.xsize (grid1.coords lastPt1) 0
                  rw [show win1_4.index lastPt1 0 * win1_4.size 0 = 0 from by decide +kernel, show win1_4.xsize (grid1.coords lastPt1) 0 = 8 from by decide +kernel]; omega
      | ⟨1, _⟩ => show win1_4.index lastPt1 1 * win1_4.size 1 ≤ (i 1 : Nat) ∧ (i 1 : Nat) < win1_4.index lastPt1 1 * win1_4.size 1 + win1_4.xsize (grid1.coords lastPt1) 1
                  rw [show win1_4.index lastPt1 1 * win1_4.size 1 = 0 from by decide +kernel, show win1_4.xsize (grid1.coords lastPt1) 1 = 8 from by decide +kernel]; omega⟩

end R1

end Cert.Kernel.Hand

end
-- ==== Proof.KbRun.lean ====
/-
  The run of @main: region 0, region 1, then the host operations, from the launch to the return, with every unscoped
  buffer's contents named at each boundary. At the end every unscoped buffer holds what the last boundary says: the
  arguments their launch contents, the results the host operations' terms of the two regions' output arrays.
-/
import proofs.«172243_j249108103965_1_alg».proof.Proof.Gen.Kernel.Launch
import proofs.«172243_j249108103965_1_alg».proof.Proof.Gen.Kernel.Skeleton
import proofs.«172243_j249108103965_1_alg».proof.Proof.Gen.Kernel.Points
import proofs.«172243_j249108103965_1_alg».proof.Proof.KbR0
import proofs.«172243_j249108103965_1_alg».proof.Proof.KbR1
import proofs.«172243_j249108103965_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After each of the three stretches of host operations. -/
abbrev W3 : Dev nD → Valuation τ sig (Elt F) := fun c => StableHlo.after hostOps2 (W2 m c)
abbrev W4 : Dev nD → Valuation τ sig (Elt F) := fun c => StableHlo.after hostOps2_1 (W3 m c)
abbrev W5 : Dev nD → Valuation τ sig (Elt F) := fun c => StableHlo.after hostOps2_2 (W4 m c)

/-! ### The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2_2 _ hostOps2_2_writes (by decide)
    _ = W3 m c (Proc.devRef .tc main_arg0) := StableHlo.after_of_writes_sub hostOps2_1 _ hostOps2_1_writes (by decide)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2_2 _ hostOps2_2_writes (by decide)
    _ = W3 m c (Proc.devRef .tc main_arg1) := StableHlo.after_of_writes_sub hostOps2_1 _ hostOps2_1_writes (by decide)
    _ = W2 m c (Proc.devRef .tc main_arg1) := StableHlo.after_of_writes_sub hostOps2 _ hostOps2_writes (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2_2 _ hostOps2_2_writes (by decide)
    _ = W3 m c (Proc.devRef .tc main_arg2) := StableHlo.after_of_writes_sub hostOps2_1 _ hostOps2_1_writes (by decide)
    _ = W2 m c (Proc.devRef .tc main_arg2) := StableHlo.after_of_writes_sub hostOps2 _ hostOps2_writes (by decide)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2_2 _ hostOps2_2_writes (by decide)
    _ = W3 m c (Proc.devRef .tc main_arg3) := StableHlo.after_of_writes_sub hostOps2_1 _ hostOps2_1_writes (by decide)
    _ = W2 m c (Proc.devRef .tc main_arg3) := StableHlo.after_of_writes_sub hostOps2 _ hostOps2_writes (by decide)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2_2 _ hostOps2_2_writes (by decide)
    _ = W3 m c (Proc.devRef .tc main_arg4) := StableHlo.after_of_writes_sub hostOps2_1 _ hostOps2_1_writes (by decide)
    _ = W2 m c (Proc.devRef .tc main_arg4) := StableHlo.after_of_writes_sub hostOps2 _ hostOps2_writes (by decide)
    _ = W1 m c (Proc.devRef .tc main_arg4) := (W2_arr m c 0).trans (((dat1 (V1 m) c).arrAt_in 0 rfl _).trans (A_eq1 (V1 m) c 0))
    _ = W0 m c (Proc.devRef .tc main_arg4) := W1_of_ne m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2_2 _ hostOps2_2_writes (by decide)
    _ = W3 m c (Proc.devRef .tc main_arg5) := StableHlo.after_of_writes_sub hostOps2_1 _ hostOps2_1_writes (by decide)
    _ = W2 m c (Proc.devRef .tc main_arg5) := StableHlo.after_of_writes_sub hostOps2 _ hostOps2_writes (by decide)
    _ = W1 m c (Proc.devRef .tc main_arg5) := (W2_arr m c 1).trans (((dat1 (V1 m) c).arrAt_in 1 rfl _).trans (A_eq1 (V1 m) c 1))
    _ = W0 m c (Proc.devRef .tc main_arg5) := W1_of_ne m c main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2_2 _ hostOps2_2_writes (by decide)
    _ = W3 m c (Proc.devRef .tc main_arg6) := StableHlo.after_of_writes_sub hostOps2_1 _ hostOps2_1_writes (by decide)
    _ = W2 m c (Proc.devRef .tc main_arg6) := StableHlo.after_of_writes_sub hostOps2 _ hostOps2_writes (by decide)
    _ = W1 m c (Proc.devRef .tc main_arg6) := (W2_arr m c 2).trans (((dat1 (V1 m) c).arrAt_in 2 rfl _).trans (A_eq1 (V1 m) c 2))
    _ = W0 m c (Proc.devRef .tc main_arg6) := W1_of_ne m c main_arg6 (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment of @main: entered with every unscoped buffer at the contents of the boundary before it, left
    with them at the boundary after it — the region's arrays split out of the unscoped buffers on entry and put back at
    what the write-backs leave on exit, the generator register lent to the region's invariant and taken back, nothing
    owed to another core, no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents of the boundary before it, left
    with them at the boundary after it — the region's arrays split out of the unscoped buffers on entry and put back at
    what the write-backs leave on exit, the generator register lent to the region's invariant and taken back, nothing
    owed to another core, no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h.trans (hin1 (V1 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)) ]

set_option backward.isDefEq.respectTransparency.types false in
/-- From any memory with zero counters every weakly fair execution of @main terminates, nothing faulting, and every
    unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_main m ρ)

end Cert.Kernel.Hand

end
-- ==== Proof.KiDefs.lean ====
/-
  What the two pallas_calls compute, point by point, as functions of the arrays each region finds.

  Region 0 (grid of 16 points, blocks of 8 × 16384 of the four f32[8, 262144] operands) keeps ONE f32[1, 2]
  accumulator: entry (0, 0) the running sum of squares of (operand 0 − operand 2), entry (0, 1) that of
  (operand 1 − operand 3); the first point starts it from the zero splat.

  Region 1 (grid of 64 points, blocks of 8 × 8 × 4096 of the two f32[8, 8, 262144] operands, the i32[8, 8] mask
  whole) keeps three things between points: the f32[1, 1] masked sum of squares, the f32[8, 8] per-row sum of
  squared neighbour differences, and the f32[8, 8, 1] last column of the block just seen, which the next point
  subtracts from its first column.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Defs
-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks of region 0 at a point, at their literal type. -/
abbrev x0_0 (c : Dev nD) (t : Fin cfg0.N) : Vec F S8x16384 .f32 := iblk0 V c 0 t
abbrev x0_1 (c : Dev nD) (t : Fin cfg0.N) : Vec F S8x16384 .f32 := iblk0 V c 1 t
abbrev x0_2 (c : Dev nD) (t : Fin cfg0.N) : Vec F S8x16384 .f32 := iblk0 V c 2 t
abbrev x0_3 (c : Dev nD) (t : Fin cfg0.N) : Vec F S8x16384 .f32 := iblk0 V c 3 t

/-- The three input blocks of region 1 at a point, at their literal type. -/
abbrev x1_0 (c : Dev nD) (t : Fin cfg1.N) : Vec F S8x8x4096 .f32 := iblk1 V c 0 t
abbrev x1_1 (c : Dev nD) (t : Fin cfg1.N) : Vec F S8x8x4096 .f32 := iblk1 V c 1 t
abbrev x1_2 (c : Dev nD) (t : Fin cfg1.N) : Vec F S8x8 .i32 := iblk1 V c 2 t

/-- Region 0's accumulator after point `n`: the body's sum payload of the point's four blocks over what the
    point before left, the first point over the zero splat it has just stored. -/
def acc0 (c : Dev nD) : (n : ℕ) → n < cfg0.N → Vec F S1x2 .f32
  | 0, hn => k0_pay2 (x0_0 V c ⟨0, hn⟩) (x0_2 V c ⟨0, hn⟩) (x0_1 V c ⟨0, hn⟩) (x0_3 V c ⟨0, hn⟩) (k0_pay1 (F := F))
  | n + 1, hn => k0_pay2 (x0_0 V c ⟨n + 1, hn⟩) (x0_2 V c ⟨n + 1, hn⟩) (x0_1 V c ⟨n + 1, hn⟩) (x0_3 V c ⟨n + 1, hn⟩)
      (acc0 c n (Nat.lt_of_succ_lt hn))

/-- Region 1 after point `n`: the masked sum of squares, the per-row sum of squared neighbour differences, and the
    last column carried to the next point. The first point starts both sums from the zero splats it has just
    stored and adds no boundary term; a later point adds the squared difference between its first column and the
    carried one. -/
def outs1 (c : Dev nD) : (n : ℕ) → n < cfg1.N → Vec F S1x1 .f32 × Vec F S8x8 .f32 × Vec F S8x8x1 .f32
  | 0, hn => (k1_pay5 (x1_0 V c ⟨0, hn⟩) (x1_1 V c ⟨0, hn⟩) (x1_2 V c ⟨0, hn⟩) (k1_pay3 (F := F)),
      k1_pay6 (x1_0 V c ⟨0, hn⟩) (k1_pay4 (F := F)),
      k1_pay2 (x1_0 V c ⟨0, hn⟩))
  | n + 1, hn => (k1_pay5 (x1_0 V c ⟨n + 1, hn⟩) (x1_1 V c ⟨n + 1, hn⟩) (x1_2 V c ⟨n + 1, hn⟩) (outs1 c n (Nat.lt_of_succ_lt hn)).1,
      k1_pay1 (x1_0 V c ⟨n + 1, hn⟩) (outs1 c n (Nat.lt_of_succ_lt hn)).2.2
        (k1_pay6 (x1_0 V c ⟨n + 1, hn⟩) (outs1 c n (Nat.lt_of_succ_lt hn)).2.1),
      k1_pay2 (x1_0 V c ⟨n + 1, hn⟩))

end Defs

end Cert.KernelIdeal.Hand

end
-- ==== Proof.KiR0.lean ====
/-
  Region 0 (the sum-of-squares pallas_call): its proof data, the body's run at every grid point, and what its
  output array holds when the region ends.

  The grid has sixteen points. At point t the body reads block t (8 × 16384) of each of the four operands and adds
  to a 1 × 2 accumulator the two sums of squared differences, operand 0 against operand 2 and operand 1 against
  operand 3; the first point starts the accumulator from zero. The accumulator lives in the output's one staging
  buffer, which is copied to the output array after the last point only; so the array ends at the accumulator
  after point 15.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import proofs.«172243_j249108103965_1_alg».proof.Proof.KiDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one branch -/

/-- The condition of the body's `scf.if`, as a function of the grid coordinates: the point's coordinate compared
    with zero, widened, compared with zero again. -/
abbrev isFirst0 (i : grid0.Coords) : Prop :=
  (Scalar.cmpi .ne (Scalar.extui (Scalar.cmpi .eq (BitVec.ofNat 32 (i 0).val) 0#32)) 0#32) = 1#1

/-- Over the sixteen points it holds at the first one only. -/
theorem isFirst0_iff : ∀ t : Fin cfg0.N, isFirst0 (grid0.coords t) ↔ t.val = 0 :=
  (by decide +kernel : ∀ t : Fin grid0.N, isFirst0 (grid0.coords t) ↔ t.val = 0)

/-- A pair of zero offsets is the zero function on the two axes. -/
theorem zeros2 : (![0, 0] : Fin 2 → Nat) = fun _ => 0 := funext fun a => by fin_cases a <;> rfl

/-! ## The body's triple, over any whole staging memrefs -/

set_option maxHeartbeats 1000000 in
/-- At the first point: whatever the output buffer holds, the body stores the zero splat, reads it back, and
    stores the sum payload of the four blocks over it; the inputs are read only. -/
theorem run0_first (c : Dev nD) (i : grid0.Coords)
    (arg1 : Memref sig .tc .vmem S8x16384 .f32) (harg1 : arg1.IsWhole) (arg2 : Memref sig .tc .vmem S8x16384 .f32) (harg2 : arg2.IsWhole)
    (arg3 : Memref sig .tc .vmem S8x16384 .f32) (harg3 : arg3.IsWhole) (arg4 : Memref sig .tc .vmem S8x16384 .f32) (harg4 : arg4.IsWhole)
    (arg5 : Memref sig .tc .vmem S1x2 .f32) (harg5 : arg5.IsWhole) (hc : isFirst0 i)
    (x0 x1 x2 x3 : Vec F S8x16384 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay2 x0 x2 x1 x3 (k0_pay1 (F := F)))) -∗ K ⟨⟩))
      ⊢ wp frame (wpE (defs₀ (F := F)) Variants.none c none) E
          (cc0__recon_kernel i arg1 harg1 arg2 harg2 arg3 harg3 arg4 harg4 arg5 harg5) K := by
  simp only [cc0__recon_kernel_eq_skeleton]; unfold cc0__recon_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  -- the last store covers the buffer, so the buffer reads as that store's payload; each load read the whole of
  -- what its buffer held, the output's the zero splat just stored
  rw [View.read_writes_eq_canon _ _ _ (fun y => ⟨_, List.mem_cons_self, View.mem_set_unit_zero zeros2 inb_S1x2_S1x2_0_0 y⟩)]
  sl_unfold_words
  rw [View.canon_cons_unit_zero (S := S1x2) zeros2]
  simp only [View.readAt_eq_ld, Memref.IsWhole.read_unread, View.ld_unit_zero (S := S8x16384) zeros2,
    View.readCov_unit_zero (S := S1x2) _ zeros2]

set_option maxHeartbeats 1000000 in
/-- At a later point: the output buffer holding `xo`, the body stores the sum payload of the four blocks over
    `xo`; the inputs are read only. -/
theorem run0_later (c : Dev nD) (i : grid0.Coords)
    (arg1 : Memref sig .tc .vmem S8x16384 .f32) (harg1 : arg1.IsWhole) (arg2 : Memref sig .tc .vmem S8x16384 .f32) (harg2 : arg2.IsWhole)
    (arg3 : Memref sig .tc .vmem S8x16384 .f32) (harg3 : arg3.IsWhole) (arg4 : Memref sig .tc .vmem S8x16384 .f32) (harg4 : arg4.IsWhole)
    (arg5 : Memref sig .tc .vmem S1x2 .f32) (harg5 : arg5.IsWhole) (hc : ¬isFirst0 i)
    (x0 x1 x2 x3 : Vec F S8x16384 .f32) (xo : Vec F S1x2 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xo
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay2 x0 x2 x1 x3 xo)) -∗ K ⟨⟩))
      ⊢ wp frame (wpE (defs₀ (F := F)) Variants.none c none) E
          (cc0__recon_kernel i arg1 harg1 arg2 harg2 arg3 harg3 arg4 harg4 arg5 harg5) K := by
  simp only [cc0__recon_kernel_eq_skeleton]; unfold cc0__recon_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  -- one covering store: the buffer reads as its payload, every load having read the whole of what its buffer held
  rw [View.read_writes_eq_canon _ _ _ (fun y => ⟨_, List.mem_cons_self, View.mem_set_unit_zero zeros2 inb_S1x2_S1x2_0_0 y⟩)]
  sl_unfold_words
  rw [View.canon_cons_unit_zero (S := S1x2) zeros2]
  simp only [View.readAt_eq_ld, Memref.IsWhole.read_unread, View.ld_unit_zero (S := S8x16384) zeros2,
    View.ld_unit_zero (S := S1x2) zeros2]

section R0
variable (V : (c : Dev nD) → (b : Ref sig .tc) → Buf (Elt F) ((c : Thread nD τ).loc b))

/-! ## What the accumulator is at a point -/

/-- At the first point the accumulator is the sum payload of the point's blocks over the zero splat. -/
theorem acc0_first (c : Dev nD) (t : Fin cfg0.N) (h0 : t.val = 0) :
    acc0 V c t.val t.isLt = k0_pay2 (x0_0 V c t) (x0_2 V c t) (x0_1 V c t) (x0_3 V c t) (k0_pay1 (F := F)) := by
  obtain ⟨n, hn⟩ := t
  cases n with
  | zero => rfl
  | succ n => exact absurd h0 (Nat.succ_ne_zero n)

/-- At a later point it is the sum payload of the point's blocks over the accumulator of the point before. -/
theorem acc0_later (c : Dev nD) (t : Fin cfg0.N) (h0 : ¬t.val = 0) :
    acc0 V c t.val t.isLt = k0_pay2 (x0_0 V c t) (x0_2 V c t) (x0_1 V c t) (x0_3 V c t)
      (acc0 V c (t.val - 1) (Nat.lt_of_le_of_lt (Nat.sub_le _ _) t.isLt)) := by
  obtain ⟨n, hn⟩ := t
  cases n with
  | zero => exact absurd rfl h0
  | succ n => rfl

/-! ## The proof data -/

/-- The proof data of pipeline 0 on core `c`: the arrays as the region finds them; after the body at point `t` each
    input's buffer still at its block, the output's at the accumulator `acc0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0 V c t.val t.isLt := by dsimp only [dat0]

/-! ## What the body finds in each buffer -/

/-- An input's buffer holds its block at every point: fetched there it holds what the fetch brought, and every
    point fetches; the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- At a later point the output's buffer holds the accumulator of the point before: the buffer is written back
    at the last point only, so nothing touched it in between. -/
theorem before0_4_later (c : Dev nD) (t : Fin cfg0.N) (h0 : ¬t.val = 0) (d) :
    (dat0 V c).before 4 t d = acc0 V c (t.val - 1) (Nat.lt_of_le_of_lt (Nat.sub_le _ _) t.isLt) := by
  have hN : t.val < 16 := lt_of_lt_of_eq t.isLt (show cfg0.N = 16 from N_0)
  rw [Dat.before_out_kept _ 4 rfl t h0
    (Bool.eq_false_iff.mpr fun h => by have := (flush0_4 _).mp h; dsimp only at this; omega)
    (fun _ => rfl) (fun _ _ => rfl)]
  dsimp only [dat0]

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The inputs' buffers hold their blocks. At the first point the branch is taken and the
    output's buffer, whatever it holds, ends at the sum payload over the zero splat; at a later point the branch
    is not taken, the output's buffer holds the accumulator of the point before and ends at the sum payload over
    it. Either way that is the accumulator at this point. The invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_first V c t h0]
    iintro ⟨HΦ, Ho, ⟨%d0, H0⟩, ⟨%d1, H1⟩, ⟨%d2, H2⟩, ⟨%d3, H3⟩, ⟨%d4, H4⟩⟩
    iapply (run0_first c (grid0.coords t) _ _ _ _ _ _ _ _ _ _ ((isFirst0_iff t).mpr h0)
      (x0_0 V c t) (x0_1 V c t) (x0_2 V c t) (x0_3 V c t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_later V c t h0]
    simp only [before0_4_later V c t h0]
    iintro ⟨HΦ, Ho, ⟨%d0, H0⟩, ⟨%d1, H1⟩, ⟨%d2, H2⟩, ⟨%d3, H3⟩, ⟨%d4, H4⟩⟩
    iapply (run0_later c (grid0.coords t) _ _ _ _ _ _ _ _ _ _ (fun h => h0 ((isFirst0_iff t).mp h))
      (x0_0 V c t) (x0_1 V c t) (x0_2 V c t) (x0_3 V c t)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The obligation the pipeline's loop asks of the body, at every point: the five windows' buffers written out one
    by one, it is `sound_body0`. -/
theorem body_obligation0 (c : Dev nD) : BodyObligation (dat0 (F := F) V c) (defs₀ (F := F)) Variants.none () Set.univ := fun t => by
  rw [bigSep_W0, bigSep_W0]
  exact sound_body0 V c t

/-! ## The output array when the region ends -/

/-- The output window's block index is (0, 0) at every point: its one block is the whole array. -/
theorem index0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- So reading the output array through that block reads the array. -/
theorem read_blk0_4 (t : Fin cfg0.N) (G : Vec F S1x2 .f32) : ((cfg0.win 4).blk t).view.read (Elt F) G = G := by
  obtain ⟨e0, e1⟩ := index0_4 t
  funext j
  show G (((cfg0.win 4).blk t).view.emb j) = G j
  refine congrArg G ?_
  funext a; apply Fin.ext
  match a with
  | ⟨0, _⟩ => show win0_4.index t (0 : Fin 2) * 1 + 1 * (j 0).val = (j 0).val; omega
  | ⟨1, _⟩ => show win0_4.index t (1 : Fin 2) * 2 + 1 * (j 1).val = (j 1).val; omega

/-- and every index of the array lies in it. -/
theorem mem_blk0_4 (t : Fin cfg0.N) (i : S1x2.Idx) : i ∈ ((cfg0.win 4).blk t).view.set := by
  obtain ⟨e0, e1⟩ := index0_4 t
  show i ∈ ((View.whole main_v0).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    have hi : (i 0).val < 1 := (i 0).isLt
    omega
  | ⟨1, _⟩ =>
    show win0_4.index t (1 : Fin 2) * 2 ≤ (i 1).val ∧ (i 1).val < win0_4.index t (1 : Fin 2) * 2 + 2
    have hi : (i 1).val < 2 := (i 1).isLt
    omega

/-- When the region ends its output array holds the accumulator after the last point. -/
theorem final0 (c : Dev nD) : (dat0 V c).arrAt 4 cfg0.N = (acc0 V c 15 (by decide) : Vec F S1x2 .f32) := by
  refine (dat0 V c).arrAt_eq_of_cover 4 (acc0 V c 15 (by decide)) (fun t hf => ?_)
    (fun i => ⟨⟨15, by decide⟩, (flush0_4 _).mpr rfl, mem_blk0_4 _ i⟩)
  -- the one point that writes back is the last; it writes what the body left there, the accumulator at 15
  have hN : t.val < 16 := lt_of_lt_of_eq t.isLt (show cfg0.N = 16 from N_0)
  have ht : t.val = 15 := by have := (flush0_4 t).mp hf; omega
  obtain ⟨n, hn⟩ := t
  dsimp only at ht
  subst ht
  show (cfg0.win 4).cut (grid0.coords ⟨15, hn⟩) ((dat0 V c).after 4 ⟨15, hn⟩) = _
  rw [after0_4]
  exact (read_blk0_4 ⟨15, hn⟩ (acc0 V c 15 hn)).symm

end R0

end Cert.KernelIdeal.Hand

end
-- ==== Proof.KiR1.lean ====
/-
  Region 1 (the masked-difference and smoothness pallas_call): its proof data with the last column carried in
  scratch between grid points, the body's run at every grid point, and what its two output arrays hold when the
  region ends.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import proofs.«172243_j249108103965_1_alg».proof.Proof.KiDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-- The body's first conditional (it zeroes both sums) asks whether the grid coordinate is 0 — -/
abbrev atFirst1 (i : grid1.Coords) : Prop :=
  (Scalar.cmpi .ne (Scalar.extui (Scalar.cmpi .eq (BitVec.ofNat 32 (i 0).val) 0#32)) 0#32) = 1#1
/-- which over the grid's 64 points holds at the first one only. -/
theorem atFirst1_iff : ∀ t : Fin cfg1.N, atFirst1 (grid1.coords t) ↔ t.val = 0 :=
  (by decide +kernel : ∀ t : Fin grid1.N, atFirst1 (grid1.coords t) ↔ t.val = 0)
/-- Its second conditional (it adds the boundary term) asks whether the coordinate is positive — -/
abbrev atLater1 (i : grid1.Coords) : Prop :=
  (Scalar.cmpi .ne (Scalar.extui (Scalar.cmpi .sgt (BitVec.ofNat 32 (i 0).val) 0#32)) 0#32) = 1#1
/-- which holds at every point but the first. -/
theorem atLater1_iff : ∀ t : Fin cfg1.N, atLater1 (grid1.coords t) ↔ t.val ≠ 0 :=
  (by decide +kernel : ∀ t : Fin grid1.N, atLater1 (grid1.coords t) ↔ t.val ≠ 0)

/-- The zero offsets of a whole-buffer access of rank 2 and of rank 3, as constant functions. -/
private theorem zeroOff2 : (![0, 0] : Fin 2 → Nat) = fun _ => 0 := funext fun a => by fin_cases a <;> rfl
private theorem zeroOff3 : (![0, 0, 0] : Fin 3 → Nat) = fun _ => 0 := funext fun a => by fin_cases a <;> rfl

/-- A buffer whose last store went through the whole-shape rectangle reads that store's payload, whatever was stored
    before and whatever it held. -/
private theorem read_after_whole_store {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

set_option maxHeartbeats 1000000 in
/-- The body at the first point, on any whole memrefs: with the two input blocks `e`, `tg` and the mask `mk` in
    their buffers and anything in the two sums' buffers and the carry, it leaves the masked sum of squares started
    from the zero splat, the neighbour sum started from the zero splat, and the last column of `e`. -/
theorem runFirst1 (c : Dev nD) (i : grid1.Coords)
    (arg1 : Memref sig .tc .vmem S8x8x4096 .f32) (harg1 : arg1.IsWhole)
    (arg2 : Memref sig .tc .vmem S8x8x4096 .f32) (harg2 : arg2.IsWhole)
    (arg3 : Memref sig .tc .vmem S8x8 .i32) (harg3 : arg3.IsWhole)
    (arg4 : Memref sig .tc .vmem S1x1 .f32) (harg4 : arg4.IsWhole)
    (arg5 : Memref sig .tc .vmem S8x8 .f32) (harg5 : arg5.IsWhole)
    (arg6 : Memref sig .tc .vmem S8x8x1 .f32) (harg6 : arg6.IsWhole)
    (hc0 : atFirst1 i) (hc1 : ¬atLater1 i)
    (e tg : Vec F S8x8x4096 .f32) (mk : Vec F S8x8 .i32) (E : Set ℕ) (K : PUnit → sProp 𝕄) :
    iprop(owns (c : Thread nD τ) arg1 fullShare e ∗ owns (c : Thread nD τ) arg2 fullShare tg ∗ owns (c : Thread nD τ) arg3 fullShare mk
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare e ∗ owns (c : Thread nD τ) arg2 fullShare tg ∗ owns (c : Thread nD τ) arg3 fullShare mk
            ∗ owns (c : Thread nD τ) arg4 fullShare (k1_pay5 e tg mk (k1_pay3 (F := F)))
            ∗ owns (c : Thread nD τ) arg5 fullShare (k1_pay6 e (k1_pay4 (F := F)))
            ∗ owns (c : Thread nD τ) arg6 fullShare (k1_pay2 e)) -∗ K ⟨⟩))
      ⊢ wp frame (wpE (defs₀ (F := F)) Variants.none c none) E (cc1__ifsmooth_kernel i arg1 harg1 arg2 harg2 arg3 harg3 arg4 harg4 arg5 harg5 arg6 harg6) K := by
  simp only [cc1__ifsmooth_kernel_eq_skeleton]; unfold cc1__ifsmooth_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  isplitl [H5]
  · iexists _; isplitr
    swap; · iexact H5
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  iexists _; isplitr
  swap; · iexact H6
  ipureintro
  rw [read_after_whole_store _ _ zeroOff3]
  sl_unfold_words
  simp only [View.readAt_eq_ld, harg1.read_unread, harg2.read_unread, harg3.read_unread, harg4.read_unread, harg5.read_unread, harg6.read_unread,
    View.ld_unit_zero (S := S8x8x4096) zeroOff3, View.ld_unit_zero (S := S8x8) zeroOff2, View.ld_unit_zero (S := S1x1) zeroOff2, View.ld_unit_zero (S := S8x8x1) zeroOff3,
    View.readCov_unit_zero (S := S1x1) _ zeroOff2, View.readCov_unit_zero (S := S8x8) _ zeroOff2, View.readCov_unit_zero (S := S8x8x1) _ zeroOff3]

set_option maxHeartbeats 1000000 in
/-- The body at a later point: with the sums' buffers at `s`, `ms` and the carry at `cy`, it leaves the masked sum
    continued from `s`, the neighbour sum continued from `ms` with the boundary term against `cy` added, and the
    last column of `e`. -/
theorem runLater1 (c : Dev nD) (i : grid1.Coords)
    (arg1 : Memref sig .tc .vmem S8x8x4096 .f32) (harg1 : arg1.IsWhole)
    (arg2 : Memref sig .tc .vmem S8x8x4096 .f32) (harg2 : arg2.IsWhole)
    (arg3 : Memref sig .tc .vmem S8x8 .i32) (harg3 : arg3.IsWhole)
    (arg4 : Memref sig .tc .vmem S1x1 .f32) (harg4 : arg4.IsWhole)
    (arg5 : Memref sig .tc .vmem S8x8 .f32) (harg5 : arg5.IsWhole)
    (arg6 : Memref sig .tc .vmem S8x8x1 .f32) (harg6 : arg6.IsWhole)
    (hc0 : ¬atFirst1 i) (hc1 : atLater1 i)
    (e tg : Vec F S8x8x4096 .f32) (mk : Vec F S8x8 .i32) (s : Vec F S1x1 .f32) (ms : Vec F S8x8 .f32) (cy : Vec F S8x8x1 .f32)
    (E : Set ℕ) (K : PUnit → sProp 𝕄) :
    iprop(owns (c : Thread nD τ) arg1 fullShare e ∗ owns (c : Thread nD τ) arg2 fullShare tg ∗ owns (c : Thread nD τ) arg3 fullShare mk
        ∗ owns (c : Thread nD τ) arg4 fullShare s ∗ owns (c : Thread nD τ) arg5 fullShare ms ∗ owns (c : Thread nD τ) arg6 fullShare cy
        ∗ (iprop(owns (c : Thread nD τ) arg1 fullShare e ∗ owns (c : Thread nD τ) arg2 fullShare tg ∗ owns (c : Thread nD τ) arg3 fullShare mk
            ∗ owns (c : Thread nD τ) arg4 fullShare (k1_pay5 e tg mk s)
            ∗ owns (c : Thread nD τ) arg5 fullShare (k1_pay1 e cy (k1_pay6 e ms))
            ∗ owns (c : Thread nD τ) arg6 fullShare (k1_pay2 e)) -∗ K ⟨⟩))
      ⊢ wp frame (wpE (defs₀ (F := F)) Variants.none c none) E (cc1__ifsmooth_kernel i arg1 harg1 arg2 harg2 arg3 harg3 arg4 harg4 arg5 harg5 arg6 harg6) K := by
  simp only [cc1__ifsmooth_kernel_eq_skeleton]; unfold cc1__ifsmooth_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  isplitl [H5]
  · iexists _; isplitr
    swap; · iexact H5
    ipureintro
    rw [read_after_whole_store _ _ zeroOff2]
    sl_unfold_words
    simp only [View.readAt_eq_ld, harg1.read_unread, harg2.read_unread, harg3.read_unread, harg4.read_unread, harg5.read_unread, harg6.read_unread,
      View.ld_unit_zero (S := S8x8x4096) zeroOff3, View.ld_unit_zero (S := S8x8) zeroOff2, View.ld_unit_zero (S := S1x1) zeroOff2, View.ld_unit_zero (S := S8x8x1) zeroOff3,
      View.readCov_unit_zero (S := S1x1) _ zeroOff2, View.readCov_unit_zero (S := S8x8) _ zeroOff2, View.readCov_unit_zero (S := S8x8x1) _ zeroOff3]
  iexists _; isplitr
  swap; · iexact H6
  ipureintro
  rw [read_after_whole_store _ _ zeroOff3]
  sl_unfold_words
  simp only [View.readAt_eq_ld, harg1.read_unread, harg2.read_unread, harg3.read_unread, harg4.read_unread, harg5.read_unread, harg6.read_unread,
    View.ld_unit_zero (S := S8x8x4096) zeroOff3, View.ld_unit_zero (S := S8x8) zeroOff2, View.ld_unit_zero (S := S1x1) zeroOff2, View.ld_unit_zero (S := S8x8x1) zeroOff3,
    View.readCov_unit_zero (S := S1x1) _ zeroOff2, View.readCov_unit_zero (S := S8x8) _ zeroOff2, View.readCov_unit_zero (S := S8x8x1) _ zeroOff3]

/-- The scratch operand that carries the last column from one point to the next. -/
abbrev carryM : Memref sig .tc .vmem S8x8x1 .f32 := Memref.whole cc1_scratch0

/-- The nine staging buffers of the other pallas_call, each whole at some contents: scoped buffers this region never
    touches. -/
def otherStaging1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f))

/-- What the launch hands the region gives those nine buffers, the carry scratch owned at some contents, and the
    generator register at some state; -/
theorem PhiA1_open (c : Dev nD) :
    (Pipeline.ΦA spec1 c : sProp 𝕄)
      ⊢ iprop(otherStaging1 (F := F) c ∗ (∃ d, owns (c : Thread nD τ) carryM fullShare d) ∗ (∃ r, prngReg c r)) := by
  unfold Pipeline.ΦA otherStaging1; rw [scopedRest1_eq]; simp only [carryM, owns_whole]
  iintro ⟨⟨A0, A1, A2, A3, A4, A5, A6, A7, A8, HS⟩, Hg⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [HS]; · iexact HS
  iexact Hg

/-- and those give it back; -/
theorem PhiA1_close (c : Dev nD) :
    iprop(otherStaging1 (F := F) c ∗ (∃ d, owns (c : Thread nD τ) carryM fullShare d) ∗ (∃ r, prngReg c r))
      ⊢ (Pipeline.ΦA spec1 c : sProp 𝕄) := by
  unfold Pipeline.ΦA otherStaging1; rw [scopedRest1_eq]; simp only [carryM, owns_whole]
  iintro ⟨⟨A0, A1, A2, A3, A4, A5, A6, A7, A8⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  iexact Hg

/-- so the two are one proposition. -/
theorem PhiA1_eq (c : Dev nD) :
    (Pipeline.ΦA spec1 c : sProp 𝕄)
      = iprop(otherStaging1 (F := F) c ∗ (∃ d, owns (c : Thread nD τ) carryM fullShare d) ∗ (∃ r, prngReg c r)) :=
  BI.equiv_iff.mp ⟨PhiA1_open c, PhiA1_close c⟩

/-- The region invariant before position `n`: before the first point every scoped buffer that is no staging
    buffer of this call is held at some contents (the library's `ΦA`); afterwards the same, except that the carry
    scratch holds exactly the last column of the block the point before saw. -/
def PhiS1 (c : Dev nD) : (n : ℕ) → n ≤ cfg1.N → sProp 𝕄
  | 0, _ => Pipeline.ΦA spec1 c
  | n + 1, hn => iprop(otherStaging1 (F := F) c ∗ owns (c : Thread nD τ) carryM fullShare ((outs1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n`: the carry at that point's last column. -/
theorem PhiS1_succ (c : Dev nD) (n : ℕ) (hn : n < cfg1.N) :
    PhiS1 V c (n + 1) hn = iprop(otherStaging1 (F := F) c ∗ owns (c : Thread nD τ) carryM fullShare ((outs1 V c n hn).2.2) ∗ (∃ r, prngReg c r)) := rfl

/-- Before a point that is not the first: the carry at the last column of the point before. -/
theorem PhiS1_pos (c : Dev nD) (n : ℕ) (h : n ≤ cfg1.N) (hz : n ≠ 0) :
    PhiS1 V c n h = iprop(otherStaging1 (F := F) c ∗ owns (c : Thread nD τ) carryM fullShare ((outs1 V c (n - 1) (by omega)).2.2) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outs1 V c t.val t.isLt).1
    | ⟨4, _⟩ => (outs1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outs1 V c t.val t.isLt).1 := by dsimp only [dat1]
theorem after1_4 (c : Dev nD) (t : Fin cfg1.N) : (dat1 V c).after 4 t = (outs1 V c t.val t.isLt).2.1 := by dsimp only [dat1]

/-- Each input's current staging buffer holds its block at every point, fetched there or not: the two operand blocks
    are fetched at every point, the mask (whose block index never moves) at the first point only and left in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- At a later point each output's staging buffer holds what the body left at the point before: neither is written
    back before the last point. -/
theorem before1_3_later (c : Dev nD) (t : Fin cfg1.N) (h0 : t.val ≠ 0) (d) :
    (dat1 V c).before 3 t d = (outs1 V c (t.val - 1) (Nat.lt_of_le_of_lt (Nat.sub_le _ _) t.isLt)).1 := by
  have hN : t.val < 64 := lt_of_lt_of_eq t.isLt (show cfg1.N = 64 from N_1)
  rw [Dat.before_out_kept _ 3 rfl t h0 (Bool.eq_false_iff.mpr fun h => by have := (flush1_3 _).mp h; dsimp only at this; omega)
    (fun _ => rfl) (fun _ _ => rfl)]
  dsimp only [dat1]
theorem before1_4_later (c : Dev nD) (t : Fin cfg1.N) (h0 : t.val ≠ 0) (d) :
    (dat1 V c).before 4 t d = (outs1 V c (t.val - 1) (Nat.lt_of_le_of_lt (Nat.sub_le _ _) t.isLt)).2.1 := by
  have hN : t.val < 64 := lt_of_lt_of_eq t.isLt (show cfg1.N = 64 from N_1)
  rw [Dat.before_out_kept _ 4 rfl t h0 (Bool.eq_false_iff.mpr fun h => by have := (flush1_4 _).mp h; dsimp only at this; omega)
    (fun _ => rfl) (fun _ _ => rfl)]
  dsimp only [dat1]

/-- The two sums and the carry after the first point -/
theorem outs1_first (c : Dev nD) (t : Fin cfg1.N) (h : t.val = 0) :
    outs1 V c t.val t.isLt = (k1_pay5 (x1_0 V c t) (x1_1 V c t) (x1_2 V c t) (k1_pay3 (F := F)),
      k1_pay6 (x1_0 V c t) (k1_pay4 (F := F)), k1_pay2 (x1_0 V c t)) := by
  obtain ⟨n, hn⟩ := t
  cases n with
  | zero => rfl
  | succ n => exact absurd h (Nat.succ_ne_zero n)

/-- and after a later one, over what the point before left. -/
theorem outs1_later (c : Dev nD) (t : Fin cfg1.N) (h : t.val ≠ 0) :
    outs1 V c t.val t.isLt = (k1_pay5 (x1_0 V c t) (x1_1 V c t) (x1_2 V c t) (outs1 V c (t.val - 1) (Nat.lt_of_le_of_lt (Nat.sub_le _ _) t.isLt)).1,
      k1_pay1 (x1_0 V c t) (outs1 V c (t.val - 1) (Nat.lt_of_le_of_lt (Nat.sub_le _ _) t.isLt)).2.2
        (k1_pay6 (x1_0 V c t) (outs1 V c (t.val - 1) (Nat.lt_of_le_of_lt (Nat.sub_le _ _) t.isLt)).2.1),
      k1_pay2 (x1_0 V c t)) := by
  obtain ⟨n, hn⟩ := t
  cases n with
  | zero => exact absurd rfl h
  | succ n => rfl

/-- Each window's current staging memref at point `t`, at its literal type, and its wholeness. -/
abbrev buf1_0 (t : Fin cfg1.N) : Memref sig .tc .vmem S8x8x4096 .f32 := win1_0.stage (cfg1.slots t 0)
abbrev bufWhole1_0 (t : Fin cfg1.N) : (buf1_0 t).IsWhole := hstage1_0 ((cfg1.slots t 0).cast nbuf1_0)
abbrev buf1_1 (t : Fin cfg1.N) : Memref sig .tc .vmem S8x8x4096 .f32 := win1_1.stage (cfg1.slots t 1)
abbrev bufWhole1_1 (t : Fin cfg1.N) : (buf1_1 t).IsWhole := hstage1_1 ((cfg1.slots t 1).cast nbuf1_1)
abbrev buf1_2 (t : Fin cfg1.N) : Memref sig .tc .vmem S8x8 .i32 := win1_2.stage (cfg1.slots t 2)
abbrev bufWhole1_2 (t : Fin cfg1.N) : (buf1_2 t).IsWhole := hstage1_2 ((cfg1.slots t 2).cast nbuf1_2)
abbrev buf1_3 (t : Fin cfg1.N) : Memref sig .tc .vmem S1x1 .f32 := win1_3.stage (cfg1.slots t 3)
abbrev bufWhole1_3 (t : Fin cfg1.N) : (buf1_3 t).IsWhole := hstage1_3 ((cfg1.slots t 3).cast nbuf1_3)
abbrev buf1_4 (t : Fin cfg1.N) : Memref sig .tc .vmem S8x8 .f32 := win1_4.stage (cfg1.slots t 4)
abbrev bufWhole1_4 (t : Fin cfg1.N) : (buf1_4 t).IsWhole := hstage1_4 ((cfg1.slots t 4).cast nbuf1_4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d))
    ∗ (∃ d, owns (c : Thread nD τ) (buf1_3 t) fullShare ((dat1 V c).before 3 t d))
    ∗ (∃ d, owns (c : Thread nD τ) (buf1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (buf1_0 t) fullShare ((dat1 V c).after 0 t)
    ∗ owns (c : Thread nD τ) (buf1_1 t) fullShare ((dat1 V c).after 1 t)
    ∗ owns (c : Thread nD τ) (buf1_2 t) fullShare ((dat1 V c).after 2 t)
    ∗ owns (c : Thread nD τ) (buf1_3 t) fullShare ((dat1 V c).after 3 t)
    ∗ owns (c : Thread nD τ) (buf1_4 t) fullShare ((dat1 V c).after 4 t))

set_option maxHeartbeats 1600000 in
/-- The body at any point. The three inputs' buffers hold their blocks. At the first point the invariant hands the
    carry at anything and the sums' buffers hold anything; at a later point the carry and the sums' buffers hold what
    the point before left. Either way the run applies, and the carry goes back into the invariant at this point's
    last column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases hz : t.val = 0
  · rw [outs1_first V c t hz]
    dsimp only
    rw [PhiS1_castSucc V c t, PhiS1_zero V c _ _ hz, PhiA1_eq]
    iintro ⟨⟨HR, HS, Hg⟩, Ho, ⟨%d0, H0⟩, ⟨%d1, H1⟩, ⟨%d2, H2⟩, ⟨%d3, H3⟩, ⟨%d4, H4⟩⟩
    iapply (runFirst1 c (grid1.coords t) (buf1_0 t) (bufWhole1_0 t) (buf1_1 t) (bufWhole1_1 t) (buf1_2 t) (bufWhole1_2 t)
      (buf1_3 t) (bufWhole1_3 t) (buf1_4 t) (bufWhole1_4 t) carryM (Memref.isWhole_whole _)
      ((atFirst1_iff t).mpr hz) (fun h => (atLater1_iff t).mp h hz) (x1_0 V c t) (x1_1 V c t) (x1_2 V c t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexact H4
  · rw [outs1_later V c t hz]
    dsimp only
    simp only [before1_3_later V c t hz, before1_4_later V c t hz]
    rw [PhiS1_castSucc V c t, PhiS1_pos V c _ _ hz]
    iintro ⟨⟨HR, HS, Hg⟩, Ho, ⟨%d0, H0⟩, ⟨%d1, H1⟩, ⟨%d2, H2⟩, ⟨%d3, H3⟩, ⟨%d4, H4⟩⟩
    iapply (runLater1 c (grid1.coords t) (buf1_0 t) (bufWhole1_0 t) (buf1_1 t) (bufWhole1_1 t) (buf1_2 t) (bufWhole1_2 t)
      (buf1_3 t) (bufWhole1_3 t) (buf1_4 t) (bufWhole1_4 t) carryM (Memref.isWhole_whole _)
      (fun h => hz ((atFirst1_iff t).mp h)) ((atLater1_iff t).mpr hz) (x1_0 V c t) (x1_1 V c t) (x1_2 V c t)
      (outs1 V c (t.val - 1) (Nat.lt_of_le_of_lt (Nat.sub_le _ _) t.isLt)).1
      (outs1 V c (t.val - 1) (Nat.lt_of_le_of_lt (Nat.sub_le _ _) t.isLt)).2.1
      (outs1 V c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carry's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HR, HS, Hg⟩
  isplitl [HR]; · iexact HR
  isplitl [HS]; · iexists _; iexact HS
  iexact Hg

/-- The masked sum of squares and the neighbour sums after the last point, as contents of the two result arrays
    (each array is one block). -/
abbrev ifsumEnd1 (c : Dev nD) : Buf (Elt F) ((c : Thread nD τ).loc main_v1_0) := (outs1 V c 63 (by decide)).1
abbrev modesumEnd1 (c : Dev nD) : Buf (Elt F) ((c : Thread nD τ).loc main_v1_1) := (outs1 V c 63 (by decide)).2.1

/-- The last point of the grid. -/
abbrev lastPt1 : Fin cfg1.N := ⟨63, by decide⟩

/-- The one write-back of each result, at the last point, writes the sum after that point: block (0, 0) of the array,
    read at zero offsets, is the array. -/
theorem flushed1_3_eq (c : Dev nD) (t : Fin cfg1.N) (hf : (cfg1.win 3).flush t = true) :
    (dat1 V c).flushed 3 t = ((cfg1.win 3).blk t).view.read (Elt F) (ifsumEnd1 V c) := by
  have hN : cfg1.N = 64 := N_1
  have h63 : t.val = 63 := by have := (flush1_3 t).mp hf; have := t.isLt; omega
  obtain rfl : t = lastPt1 := Fin.ext h63
  show (cfg1.win 3).cut (grid1.coords lastPt1) ((dat1 V c).after 3 lastPt1) = _
  rw [after1_3]
  have hz' : (fun a => win1_3.index lastPt1 a * main_v1_0.ty.shape.size a) = fun _ => 0 := funext fun a => by fin_cases a <;> decide
  exact (Memref.read_access_unit_zero (Elt F) main_v1_0 hz' (fun a => by rw [congrFun hz' a]; simp) (ifsumEnd1 V c)).symm

theorem flushed1_4_eq (c : Dev nD) (t : Fin cfg1.N) (hf : (cfg1.win 4).flush t = true) :
    (dat1 V c).flushed 4 t = ((cfg1.win 4).blk t).view.read (Elt F) (modesumEnd1 V c) := by
  have hN : cfg1.N = 64 := N_1
  have h63 : t.val = 63 := by have := (flush1_4 t).mp hf; have := t.isLt; omega
  obtain rfl : t = lastPt1 := Fin.ext h63
  show (cfg1.win 4).cut (grid1.coords lastPt1) ((dat1 V c).after 4 lastPt1) = _
  rw [after1_4]
  have hz' : (fun a => win1_4.index lastPt1 a * main_v1_1.ty.shape.size a) = fun _ => 0 := funext fun a => by fin_cases a <;> decide
  exact (Memref.read_access_unit_zero (Elt F) main_v1_1 hz' (fun a => by rw [congrFun hz' a]; simp) (modesumEnd1 V c)).symm

/-- When the region ends its two output arrays hold the two sums after the last point. -/
theorem final1_3 (c : Dev nD) : (dat1 V c).arrAt 3 cfg1.N = ((outs1 V c 63 (by decide)).1 : Vec F S1x1 .f32) :=
  (dat1 V c).arrAt_eq_of_cover 3 (ifsumEnd1 V c) (flushed1_3_eq V c) fun i =>
    ⟨lastPt1, (flush1_3 lastPt1).mpr rfl, by
      show i ∈ ((View.whole main_v1_0).slice (win1_3.rect lastPt1)).set
      rw [View.set_slice_whole, Rect.mem_set_unit]
      intro a
      have h0 : (i 0 : Nat) < 1 := (i 0).isLt
      have h1 : (i 1 : Nat) < 1 := (i 1).isLt
      match a with
      | ⟨0, _⟩ => show win1_3.index lastPt1 0 * win1_3.size 0 ≤ (i 0 : Nat) ∧ (i 0 : Nat) < win1_3.index lastPt1 0 * win1_3.size 0 + win1_3.xsize (grid1.coords lastPt1) 0
                  rw [show win1_3.index lastPt1 0 * win1_3.size 0 = 0 from by decide +kernel, show win1_3.xsize (grid1.coords lastPt1) 0 = 1 from by decide +kernel]; omega
      | ⟨1, _⟩ => show win1_3.index lastPt1 1 * win1_3.size 1 ≤ (i 1 : Nat) ∧ (i 1 : Nat) < win1_3.index lastPt1 1 * win1_3.size 1 + win1_3.xsize (grid1.coords lastPt1) 1
                  rw [show win1_3.index lastPt1 1 * win1_3.size 1 = 0 from by decide +kernel, show win1_3.xsize (grid1.coords lastPt1) 1 = 1 from by decide +kernel]; omega⟩
theorem final1_4 (c : Dev nD) : (dat1 V c).arrAt 4 cfg1.N = ((outs1 V c 63 (by decide)).2.1 : Vec F S8x8 .f32) :=
  (dat1 V c).arrAt_eq_of_cover 4 (modesumEnd1 V c) (flushed1_4_eq V c) fun i =>
    ⟨lastPt1, (flush1_4 lastPt1).mpr rfl, by
      show i ∈ ((View.whole main_v1_1).slice (win1_4.rect lastPt1)).set
      rw [View.set_slice_whole, Rect.mem_set_unit]
      intro a
      have h0 : (i 0 : Nat) < 8 := (i 0).isLt
      have h1 : (i 1 : Nat) < 8 := (i 1).isLt
      match a with
      | ⟨0, _⟩ => show win1_4.index lastPt1 0 * win1_4.size 0 ≤ (i 0 : Nat) ∧ (i 0 : Nat) < win1_4.index lastPt1 0 * win1_4.size 0 + win1_4.xsize (grid1.coords lastPt1) 0
                  rw [show win1_4.index lastPt1 0 * win1_4.size 0 = 0 from by decide +kernel, show win1_4.xsize (grid1.coords lastPt1) 0 = 8 from by decide +kernel]; omega
      | ⟨1, _⟩ => show win1_4.index lastPt1 1 * win1_4.size 1 ≤ (i 1 : Nat) ∧ (i 1 : Nat) < win1_4.index lastPt1 1 * win1_4.size 1 + win1_4.xsize (grid1.coords lastPt1) 1
                  rw [show win1_4.index lastPt1 1 * win1_4.size 1 = 0 from by decide +kernel, show win1_4.xsize (grid1.coords lastPt1) 1 = 8 from by decide +kernel]; omega⟩

end R1

end Cert.KernelIdeal.Hand

end
-- ==== Proof.KiRun.lean ====
/-
  The run of @main: region 0, region 1, then the host operations, from the launch to the return, with every unscoped
  buffer's contents named at each boundary. At the end every unscoped buffer holds what the last boundary says: the
  arguments their launch contents, the results the host operations' terms of the two regions' output arrays.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import proofs.«172243_j249108103965_1_alg».proof.Proof.KiR0
import proofs.«172243_j249108103965_1_alg».proof.Proof.KiR1
import proofs.«172243_j249108103965_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After each of the three stretches of host operations. -/
abbrev W3 : Dev nD → Valuation τ sig (Elt F) := fun c => StableHlo.after hostOps2 (W2 m c)
abbrev W4 : Dev nD → Valuation τ sig (Elt F) := fun c => StableHlo.after hostOps2_1 (W3 m c)
abbrev W5 : Dev nD → Valuation τ sig (Elt F) := fun c => StableHlo.after hostOps2_2 (W4 m c)

/-! ### The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2_2 _ hostOps2_2_writes (by decide)
    _ = W3 m c (Proc.devRef .tc main_arg0) := StableHlo.after_of_writes_sub hostOps2_1 _ hostOps2_1_writes (by decide)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2_2 _ hostOps2_2_writes (by decide)
    _ = W3 m c (Proc.devRef .tc main_arg1) := StableHlo.after_of_writes_sub hostOps2_1 _ hostOps2_1_writes (by decide)
    _ = W2 m c (Proc.devRef .tc main_arg1) := StableHlo.after_of_writes_sub hostOps2 _ hostOps2_writes (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2_2 _ hostOps2_2_writes (by decide)
    _ = W3 m c (Proc.devRef .tc main_arg2) := StableHlo.after_of_writes_sub hostOps2_1 _ hostOps2_1_writes (by decide)
    _ = W2 m c (Proc.devRef .tc main_arg2) := StableHlo.after_of_writes_sub hostOps2 _ hostOps2_writes (by decide)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2_2 _ hostOps2_2_writes (by decide)
    _ = W3 m c (Proc.devRef .tc main_arg3) := StableHlo.after_of_writes_sub hostOps2_1 _ hostOps2_1_writes (by decide)
    _ = W2 m c (Proc.devRef .tc main_arg3) := StableHlo.after_of_writes_sub hostOps2 _ hostOps2_writes (by decide)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2_2 _ hostOps2_2_writes (by decide)
    _ = W3 m c (Proc.devRef .tc main_arg4) := StableHlo.after_of_writes_sub hostOps2_1 _ hostOps2_1_writes (by decide)
    _ = W2 m c (Proc.devRef .tc main_arg4) := StableHlo.after_of_writes_sub hostOps2 _ hostOps2_writes (by decide)
    _ = W1 m c (Proc.devRef .tc main_arg4) := (W2_arr m c 0).trans (((dat1 (V1 m) c).arrAt_in 0 rfl _).trans (A_eq1 (V1 m) c 0))
    _ = W0 m c (Proc.devRef .tc main_arg4) := W1_of_ne m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2_2 _ hostOps2_2_writes (by decide)
    _ = W3 m c (Proc.devRef .tc main_arg5) := StableHlo.after_of_writes_sub hostOps2_1 _ hostOps2_1_writes (by decide)
    _ = W2 m c (Proc.devRef .tc main_arg5) := StableHlo.after_of_writes_sub hostOps2 _ hostOps2_writes (by decide)
    _ = W1 m c (Proc.devRef .tc main_arg5) := (W2_arr m c 1).trans (((dat1 (V1 m) c).arrAt_in 1 rfl _).trans (A_eq1 (V1 m) c 1))
    _ = W0 m c (Proc.devRef .tc main_arg5) := W1_of_ne m c main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2_2 _ hostOps2_2_writes (by decide)
    _ = W3 m c (Proc.devRef .tc main_arg6) := StableHlo.after_of_writes_sub hostOps2_1 _ hostOps2_1_writes (by decide)
    _ = W2 m c (Proc.devRef .tc main_arg6) := StableHlo.after_of_writes_sub hostOps2 _ hostOps2_writes (by decide)
    _ = W1 m c (Proc.devRef .tc main_arg6) := (W2_arr m c 2).trans (((dat1 (V1 m) c).arrAt_in 2 rfl _).trans (A_eq1 (V1 m) c 2))
    _ = W0 m c (Proc.devRef .tc main_arg6) := W1_of_ne m c main_arg6 (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment of @main: entered with every unscoped buffer at the contents of the boundary before it, left
    with them at the boundary after it — the region's arrays split out of the unscoped buffers on entry and put back at
    what the write-backs leave on exit, the generator register lent to the region's invariant and taken back, nothing
    owed to another core, no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents of the boundary before it, left
    with them at the boundary after it — the region's arrays split out of the unscoped buffers on entry and put back at
    what the write-backs leave on exit, the generator register lent to the region's invariant and taken back, nothing
    owed to another core, no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h.trans (hin1 (V1 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)) ]

set_option backward.isDefEq.respectTransparency.types false in
/-- From any memory with zero counters every weakly fair execution of @main terminates, nothing faulting, and every
    unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_main m ρ)

end Cert.KernelIdeal.Hand

end
-- ==== Proof.KiTail.lean ====
/-
  The host operations that follow the two regions, as functions of what the regions leave: the two mean squared
  errors and their sum from the [1, 2] sums of squares, the masked mean from the [1, 1] sum, the count of active
  rows and the mean over active rows of the per-row mean squared neighbour difference from the [8, 8] sums, and
  the weighted total, whose smoothness term is dropped when no row is active.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import proofs.«172243_j249108103965_1_alg».proof.Proof.KiRun
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

section Tail

/-- The reconstruction loss from its two numerators. -/
def tRecon (sr si : (⟨S_, .f32⟩ : BufTy).Contents (Elt F)) : (⟨S_, .f32⟩ : BufTy).Contents (Elt F) :=
  addf (Host.divf sr (constant S_ .f32 0x4A000000#32)) (Host.divf si (constant S_ .f32 0x4A000000#32))

/-- The masked mean squared difference from its numerator. -/
def tIf (sif : (⟨S_, .f32⟩ : BufTy).Contents (Elt F)) : (⟨S_, .f32⟩ : BufTy).Contents (Elt F) :=
  Host.divf sif (constant S_ .f32 0x4B800000#32)

/-- The mask as a float array: 1 where the mask word is 1. -/
def tMaskf (mk : (⟨S8x8, .i32⟩ : BufTy).Contents (Elt F)) : (⟨S8x8, .f32⟩ : BufTy).Contents (Elt F) :=
  uitofp (F := F) .f32 (cmpi .eq mk (broadcastInDim S8x8 ![] bcast_S_S8x8 (constantI S_ 32 1#32)))

/-- The number of active rows. -/
def tCnt (mk : (⟨S8x8, .i32⟩ : BufTy).Contents (Elt F)) : (⟨S_, .f32⟩ : BufTy).Contents (Elt F) :=
  Host.reduceAdd (tMaskf mk) (constant S_ .f32 0x00000000#32) reducesTo_S8x8_S_d0_1 h_S_

/-- The smoothness loss from the per-row sums of squared neighbour differences. -/
def tSmooth (ms : (⟨S8x8, .f32⟩ : BufTy).Contents (Elt F)) (mk : (⟨S8x8, .i32⟩ : BufTy).Contents (Elt F)) : (⟨S_, .f32⟩ : BufTy).Contents (Elt F) :=
  Host.divf (Host.reduceAdd (mulf (Host.divf ms (broadcastInDim S8x8 ![] bcast_S_S8x8 (constant S_ .f32 0x487FFFC0#32))) (tMaskf mk))
    (constant S_ .f32 0x00000000#32) reducesTo_S8x8_S_d0_1 h_S_) (maximumf (tCnt mk) (constant S_ .f32 0x3F800000#32))

/-- The total loss. -/
def tTotal (sr si sif : (⟨S_, .f32⟩ : BufTy).Contents (Elt F)) (ms : (⟨S8x8, .f32⟩ : BufTy).Contents (Elt F))
    (mk : (⟨S8x8, .i32⟩ : BufTy).Contents (Elt F)) : (⟨S_, .f32⟩ : BufTy).Contents (Elt F) :=
  addf (addf (mulf (constant S_ .f32 0x3F800000#32) (tRecon sr si)) (mulf (constant S_ .f32 0x3F000000#32) (tIf sif)))
    (select (cmpf (F := F) .ogt (tCnt mk) (constant S_ .f32 0x00000000#32))
      (mulf (constant S_ .f32 0x3DCCCCCD#32) (tSmooth ms mk)) (id (constant S_ .f32 0x00000000#32)))

end Tail

variable (m : (ℓ : Loc nD τ sig) → Buf (Elt F) ℓ)

/-- The three scalars the host reads off the regions' output arrays. -/
abbrev kSr (c : Dev nD) : (⟨S_, .f32⟩ : BufTy).Contents (Elt F) :=
  shapeCast S_ (extractStridedSlice S1x1 ![0, 0] (W2 m c (Proc.devRef .tc main_v0)) slices_S1x2_S1x1_0_0) shapeCasts_S1x1_S_
abbrev kSi (c : Dev nD) : (⟨S_, .f32⟩ : BufTy).Contents (Elt F) :=
  shapeCast S_ (extractStridedSlice S1x1 ![0, 1] (W2 m c (Proc.devRef .tc main_v0)) slices_S1x2_S1x1_0_1) shapeCasts_S1x1_S_
abbrev kSif (c : Dev nD) : (⟨S_, .f32⟩ : BufTy).Contents (Elt F) :=
  shapeCast S_ (W2 m c (Proc.devRef .tc main_v1_0)) shapeCasts_S1x1_S_

set_option maxHeartbeats 2000000 in
theorem W5_main_v8 (c : Dev nD) : W5 m c (Proc.devRef .tc main_v8) = tRecon (kSr m c) (kSi m c) := by
  dsimp only [W5, W4, W3]
  after_results_simp <;> rfl

set_option maxHeartbeats 2000000 in
theorem W5_main_v11 (c : Dev nD) : W5 m c (Proc.devRef .tc main_v11) = tIf (kSif m c) := by
  dsimp only [W5, W4, W3]
  after_results_simp <;> rfl

set_option maxHeartbeats 2000000 in
theorem W5_main_v23 (c : Dev nD) :
    W5 m c (Proc.devRef .tc main_v23) = tSmooth (W2 m c (Proc.devRef .tc main_v1_1)) (W2 m c (Proc.devRef .tc main_arg6)) := by
  dsimp only [W5, W4, W3]
  after_results_simp <;> rfl

set_option maxHeartbeats 4000000 in
theorem W5_main_v27 (c : Dev nD) :
    W5 m c (Proc.devRef .tc main_v27)
      = tTotal (kSr m c) (kSi m c) (kSif m c) (W2 m c (Proc.devRef .tc main_v1_1)) (W2 m c (Proc.devRef .tc main_arg6)) := by
  dsimp only [W5, W4, W3]
  after_results_simp <;> rfl

end Cert.KernelIdeal.Hand

end
-- ==== Proof.Spec.lean ====
/-
  The four sums the loss is made of, as plain sums of extended reals over whole arrays.

  `sumSq a b` is the sum over an [8, 262144] array of (a − b)²; `sumSqMasked e g mk` the sum over an
  [8, 8, 262144] array of ((e − g) · v)², where v is 1 on the rows (b, n) whose mask word is 1 and 0 elsewhere;
  `sumNbr e b n` the sum along row (b, n) of the squared differences of neighbouring entries, 262143 of them.
-/
import Idealize.ShloMosaic.PureOps.Ideal
import Idealize.ShloMosaic.Lib.ValueIdx

noncomputable section

namespace Cert.Spec

open Idealize.ShloMosaic Idealize.ShloMosaic.ValueIdx

/-- The mask as a number: 1 where the mask word is 1, else 0. -/
def maskf (mk : (⟨2, ![8, 8]⟩ : Shape).Idx → BitVec 32) (i : (⟨2, ![8, 8]⟩ : Shape).Idx) : EReal :=
  if mk i = 1#32 then 1 else 0

/-- (x − y)². -/
def sqDiff (x y : EReal) : EReal := (x - y) * (x - y)

/-- Σ over the whole [8, 262144] array of (a − b)². -/
def sumSq (a b : (⟨2, ![8, 262144]⟩ : Shape).Idx → EReal) : EReal := ∑ j, sqDiff (a j) (b j)

/-- Σ over the whole [8, 8, 262144] array of ((e − g) · v)², v the mask of the entry's row. -/
def sumSqMasked (e g : (⟨3, ![8, 8, 262144]⟩ : Shape).Idx → EReal) (mk : (⟨2, ![8, 8]⟩ : Shape).Idx → BitVec 32) : EReal :=
  ∑ j, ((e j - g j) * maskf mk (ix2 ⟨(j 0).val, (j 0).isLt⟩ ⟨(j 1).val, (j 1).isLt⟩)) * ((e j - g j) * maskf mk (ix2 ⟨(j 0).val, (j 0).isLt⟩ ⟨(j 1).val, (j 1).isLt⟩))

/-- Σ along row (b, n) of the squared differences of neighbouring entries. -/
def sumNbr (e : (⟨3, ![8, 8, 262144]⟩ : Shape).Idx → EReal) (b n : Fin 8) : EReal :=
  ∑ k : Fin 262143, sqDiff (e (ix3 b n ⟨k.val + 1, by omega⟩)) (e (ix3 b n ⟨k.val, by omega⟩))

end Cert.Spec

end
-- ==== Proof.Results.lean ====
/-
  The four results as functions of the seven argument arrays: the host operations of KiTail.lean applied to the
  plain sums of Spec.lean. Both programs are shown to end with exactly these.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import proofs.«172243_j249108103965_1_alg».proof.Proof.KiTail
import proofs.«172243_j249108103965_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Results

/-- Σ (a − b)² over the whole array, as the scalar array the host operations read. -/
def leafSq (a b : (⟨S8x262144, .f32⟩ : BufTy).Contents (Elt Ideal)) : (⟨S_, .f32⟩ : BufTy).Contents (Elt Ideal) :=
  fun _ => Cert.Spec.sumSq a b
/-- Σ ((e − g) · mask)² over the whole array. -/
def leafSqM (e g : (⟨S8x8x262144, .f32⟩ : BufTy).Contents (Elt Ideal)) (mk : (⟨S8x8, .i32⟩ : BufTy).Contents (Elt Ideal)) :
    (⟨S_, .f32⟩ : BufTy).Contents (Elt Ideal) :=
  fun _ => Cert.Spec.sumSqMasked e g mk
/-- The per-row sums of squared neighbour differences. -/
def leafNbr (e : (⟨S8x8x262144, .f32⟩ : BufTy).Contents (Elt Ideal)) : (⟨S8x8, .f32⟩ : BufTy).Contents (Elt Ideal) :=
  fun i => Cert.Spec.sumNbr e ⟨(i 0).val, (i 0).isLt⟩ ⟨(i 1).val, (i 1).isLt⟩

def resTotal (a0 a1 a2 a3 : (⟨S8x262144, .f32⟩ : BufTy).Contents (Elt Ideal)) (a4 a5 : (⟨S8x8x262144, .f32⟩ : BufTy).Contents (Elt Ideal))
    (a6 : (⟨S8x8, .i32⟩ : BufTy).Contents (Elt Ideal)) : (⟨S_, .f32⟩ : BufTy).Contents (Elt Ideal) :=
  tTotal (leafSq a0 a2) (leafSq a1 a3) (leafSqM a4 a5 a6) (leafNbr a4) a6
def resRecon (a0 a1 a2 a3 : (⟨S8x262144, .f32⟩ : BufTy).Contents (Elt Ideal)) : (⟨S_, .f32⟩ : BufTy).Contents (Elt Ideal) :=
  tRecon (leafSq a0 a2) (leafSq a1 a3)
def resIf (a4 a5 : (⟨S8x8x262144, .f32⟩ : BufTy).Contents (Elt Ideal)) (a6 : (⟨S8x8, .i32⟩ : BufTy).Contents (Elt Ideal)) :
    (⟨S_, .f32⟩ : BufTy).Contents (Elt Ideal) :=
  tIf (leafSqM a4 a5 a6)
def resSmooth (a4 : (⟨S8x8x262144, .f32⟩ : BufTy).Contents (Elt Ideal)) (a6 : (⟨S8x8, .i32⟩ : BufTy).Contents (Elt Ideal)) :
    (⟨S_, .f32⟩ : BufTy).Contents (Elt Ideal) :=
  tSmooth (leafNbr a4) a6

end Results

end Cert.KernelIdeal.Hand

end
-- ==== Proof.KiVal0.lean ====
/-
  Region 0's accumulator after its last grid point, read as numbers: entry (0, 0) is the sum over the whole
  [8, 262144] arrays of (operand 0 − operand 2)², entry (0, 1) that of (operand 1 − operand 3)².
-/
import proofs.«172243_j249108103965_1_alg».proof.Proof.KiDefs
import proofs.«172243_j249108103965_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-- A sum along the lanes of an [8, 16384] vector, read at row r: the sum of that row's 16384 entries. -/
theorem laneSum0_rows (v : FVec Ideal S8x16384 .f32) (r : Fin 8) :
    multiReduction .add [1] S8 v 0x00000000#32 reduces_S8x16384_S8 (.inl rfl) rfl (ix1 r)
      = ∑ j : Fin 16384, v (ix2 r j) := by
  refine (Ideal.multiReduction_add_single v 0x00000000#32 reduces_S8x16384_S8 (.inl rfl) rfl (ix1 r)).trans ?_
  refine Finset.sum_congr rfl fun j _ => congrArg v ?_
  funext a
  apply Fin.ext
  match a with
  | ⟨0, _⟩ => rfl
  | ⟨1, _⟩ => rfl

/-- A sum along the lanes of a [1, 8] vector, read at its one row: the sum of the 8 entries. -/
theorem laneSum0_one (v : FVec Ideal S1x8 .f32) :
    multiReduction .add [1] S1 v 0x00000000#32 reduces_S1x8_S1 (.inl rfl) rfl (ix1 (0 : Fin 1))
      = ∑ r : Fin 8, v (ix2 (0 : Fin 1) r) := by
  refine (Ideal.multiReduction_add_single v 0x00000000#32 reduces_S1x8_S1 (.inl rfl) rfl (ix1 (0 : Fin 1))).trans ?_
  refine Finset.sum_congr rfl fun j _ => congrArg v ?_
  funext a
  apply Fin.ext
  match a with
  | ⟨0, _⟩ => rfl
  | ⟨1, _⟩ => rfl

/-- The whole-block sum the kernel takes: lanes first (16384 per row), then the 8 row sums, read off the
    one entry of the [1, 1] result. -/
theorem totalSum0 (v : FVec Ideal S8x16384 .f32) :
    extractAt ![0, 0]
        (shapeCast S1x1
          (multiReduction .add [1] S1
            (shapeCast S1x8 (multiReduction .add [1] S8 v 0x00000000#32 reduces_S8x16384_S8 (.inl rfl) rfl) shapeCasts_S8_S1x8)
            0x00000000#32 reduces_S1x8_S1 (.inl rfl) rfl)
          shapeCasts_S1_S1x1)
        inpos_S1x1_p0_0
      = ∑ r : Fin 8, ∑ j : Fin 16384, v (ix2 r j) := by
  unfold extractAt
  have e : (fun a => (⟨(![0, 0] : Fin 2 → Nat) a, inpos_S1x1_p0_0 a⟩ : Fin (S1x1.size a))) = ix2 (0 : Fin 1) (0 : Fin 1) := by
    funext a
    match a with
    | ⟨0, _⟩ => rfl
    | ⟨1, _⟩ => rfl
  refine (congrArg (shapeCast S1x1 _ shapeCasts_S1_S1x1) e).trans ?_
  refine (shapeCast_a_1a_apply _ shapeCasts_S1_S1x1 (0 : Fin 1) (0 : Fin 1)).trans ?_
  refine (laneSum0_one _).trans ?_
  refine Finset.sum_congr rfl fun r _ => ?_
  refine (shapeCast_a_1a_apply _ shapeCasts_S8_S1x8 (0 : Fin 1) r).trans ?_
  exact laneSum0_rows v r

/-- The sum of the squared differences of two blocks, rows outside, lanes inside. -/
def blockSq0 (x y : Vec Ideal S8x16384 .f32) : EReal :=
  ∑ r : Fin 8, ∑ j : Fin 16384, Cert.Spec.sqDiff (x (ix2 r j)) (y (ix2 r j))

/-- The body's sum payload at entry (0, 0): what was there plus the block sum of (first − second)². -/
theorem k0_pay2_re (x0 x2 x1 x3 : Vec Ideal S8x16384 .f32) (acc : Vec Ideal S1x2 .f32) :
    k0_pay2 x0 x2 x1 x3 acc (ix2 (0 : Fin 1) (0 : Fin 2)) = acc (ix2 (0 : Fin 1) (0 : Fin 2)) + blockSq0 x0 x2 := by
  unfold k0_pay2
  refine (addf_apply _ _ _).trans ?_
  refine congrArg₂ (· + ·) ?_ ?_
  · exact congrFun (shapeCast_self acc shapeCasts_S1x2_S1x2) _
  · refine (shapeCast_a_1a_apply _ shapeCasts_S2_S1x2 (0 : Fin 1) (0 : Fin 2)).trans ?_
    refine (concatenate_pair_apply_left (t := S2) (s₁ := S1) (s₂ := S1) (0 : Fin 1) _ _ concatenates_S1_S1_S2_d0 (ix1 (0 : Fin 2)) rfl
      (ix1 (0 : Fin 1)) (fun b => ?_)).trans ?_
    · match b with
      | ⟨0, _⟩ => rfl
    · refine (totalSum0 _).trans ?_
      rfl

/-- The body's sum payload at entry (0, 1): what was there plus the block sum of (third − fourth)². -/
theorem k0_pay2_im (x0 x2 x1 x3 : Vec Ideal S8x16384 .f32) (acc : Vec Ideal S1x2 .f32) :
    k0_pay2 x0 x2 x1 x3 acc (ix2 (0 : Fin 1) (1 : Fin 2)) = acc (ix2 (0 : Fin 1) (1 : Fin 2)) + blockSq0 x1 x3 := by
  unfold k0_pay2
  refine (addf_apply _ _ _).trans ?_
  refine congrArg₂ (· + ·) ?_ ?_
  · exact congrFun (shapeCast_self acc shapeCasts_S1x2_S1x2) _
  · refine (shapeCast_a_1a_apply _ shapeCasts_S2_S1x2 (0 : Fin 1) (1 : Fin 2)).trans ?_
    refine (concatenate_pair_apply_right (t := S2) (s₁ := S1) (s₂ := S1) (0 : Fin 1) _ _ concatenates_S1_S1_S2_d0 (ix1 (1 : Fin 2)) rfl rfl
      (ix1 (0 : Fin 1)) (fun b hb => ?_) rfl).trans ?_
    · match b with
      | ⟨0, _⟩ => exact absurd rfl hb
    · refine (totalSum0 _).trans ?_
      rfl

/-- The 262144 lanes are 16 lane blocks of 16384: a sum over the lanes is the sum over the blocks of the sums
    inside each. -/
theorem sum_lanes0 {M : Type*} [AddCommMonoid M] (g : Fin 262144 → M) :
    ∑ k : Fin 262144, g k
      = ∑ t : Fin 16, ∑ j : Fin 16384, g ⟨t.val * 16384 + j.val, by have := t.isLt; have := j.isLt; omega⟩ := by
  rw [← Fintype.sum_prod_type']
  refine (Fintype.sum_equiv (finProdFinEquiv (m := 16) (n := 16384)) _ _ fun x => congrArg g (Fin.ext ?_)).symm
  show x.1.val * 16384 + x.2.val = x.2.val + 16384 * x.1.val
  omega

/-- So a sum over a whole [8, 262144] array is the sum over the 16 lane blocks of the sums over each
    [8, 16384] block, rows outside, lanes inside. -/
theorem sum_blocks0 {M : Type*} [AddCommMonoid M] (f : S8x262144.Idx → M) :
    ∑ i, f i
      = ∑ t : Fin 16, ∑ r : Fin 8, ∑ j : Fin 16384,
          f (ix2 r ⟨t.val * 16384 + j.val, by have := t.isLt; have := j.isLt; omega⟩) := by
  refine (sum_idx2 (n0 := 8) (n1 := 262144) f).trans ?_
  refine Eq.trans ?_ Finset.sum_comm
  refine Finset.sum_congr rfl fun r _ => ?_
  exact sum_lanes0 fun k => f (ix2 r k)

section Val0
variable (V : (c : Dev nD) → (b : Ref sig .tc) → Buf (Elt Ideal) ((c : Thread nD τ).loc b))

/-- The four input windows' block index over the grid: row block 0, lane block t. -/
theorem index0_0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem index0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem index0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem index0_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

/-- Lane j of lane block t is a lane of the whole array. -/
theorem lane_lt0 (t : Fin cfg0.N) (j : Fin 16384) : t.val * 16384 + j.val < 262144 := by
  have h : t.val < 16 := lt_of_lt_of_eq t.isLt N_0
  have := j.isLt
  omega

/-- Entry (r, j) of the first operand's block at point t is the array's entry (r, 16384 t + j). -/
theorem blk0_0 (c : Dev nD) (t : Fin cfg0.N) (r : Fin 8) (j : Fin 16384) :
    x0_0 V c t (ix2 r j) = V c main_arg0 (ix2 r ⟨t.val * 16384 + j.val, lane_lt0 t j⟩) := by
  unfold x0_0 iblk0
  rw [View.read_apply]
  show V c main_arg0 (((cfg0.win 0).blk t).view.emb (ix2 r j)) = _
  refine congrArg (V c main_arg0) ?_
  funext a
  apply Fin.ext
  match a with
  | ⟨0, _⟩ =>
    show win0_0.index t 0 * 8 + 1 * r.val = r.val
    rw [(index0_0 t).1]; omega
  | ⟨1, _⟩ =>
    show win0_0.index t 1 * 16384 + 1 * j.val = t.val * 16384 + j.val
    rw [(index0_0 t).2]; omega

/-- The same for the second operand, -/
theorem blk0_1 (c : Dev nD) (t : Fin cfg0.N) (r : Fin 8) (j : Fin 16384) :
    x0_1 V c t (ix2 r j) = V c main_arg1 (ix2 r ⟨t.val * 16384 + j.val, lane_lt0 t j⟩) := by
  unfold x0_1 iblk0
  rw [View.read_apply]
  show V c main_arg1 (((cfg0.win 1).blk t).view.emb (ix2 r j)) = _
  refine congrArg (V c main_arg1) ?_
  funext a
  apply Fin.ext
  match a with
  | ⟨0, _⟩ =>
    show win0_1.index t 0 * 8 + 1 * r.val = r.val
    rw [(index0_1 t).1]; omega
  | ⟨1, _⟩ =>
    show win0_1.index t 1 * 16384 + 1 * j.val = t.val * 16384 + j.val
    rw [(index0_1 t).2]; omega

/-- the third, -/
theorem blk0_2 (c : Dev nD) (t : Fin cfg0.N) (r : Fin 8) (j : Fin 16384) :
    x0_2 V c t (ix2 r j) = V c main_arg2 (ix2 r ⟨t.val * 16384 + j.val, lane_lt0 t j⟩) := by
  unfold x0_2 iblk0
  rw [View.read_apply]
  show V c main_arg2 (((cfg0.win 2).blk t).view.emb (ix2 r j)) = _
  refine congrArg (V c main_arg2) ?_
  funext a
  apply Fin.ext
  match a with
  | ⟨0, _⟩ =>
    show win0_2.index t 0 * 8 + 1 * r.val = r.val
    rw [(index0_2 t).1]; omega
  | ⟨1, _⟩ =>
    show win0_2.index t 1 * 16384 + 1 * j.val = t.val * 16384 + j.val
    rw [(index0_2 t).2]; omega

/-- and the fourth. -/
theorem blk0_3 (c : Dev nD) (t : Fin cfg0.N) (r : Fin 8) (j : Fin 16384) :
    x0_3 V c t (ix2 r j) = V c main_arg3 (ix2 r ⟨t.val * 16384 + j.val, lane_lt0 t j⟩) := by
  unfold x0_3 iblk0
  rw [View.read_apply]
  show V c main_arg3 (((cfg0.win 3).blk t).view.emb (ix2 r j)) = _
  refine congrArg (V c main_arg3) ?_
  funext a
  apply Fin.ext
  match a with
  | ⟨0, _⟩ =>
    show win0_3.index t 0 * 8 + 1 * r.val = r.val
    rw [(index0_3 t).1]; omega
  | ⟨1, _⟩ =>
    show win0_3.index t 1 * 16384 + 1 * j.val = t.val * 16384 + j.val
    rw [(index0_3 t).2]; omega

/-- The zero splat the first point stores, read at any entry. -/
theorem k0_pay1_apply (i : S1x2.Idx) : k0_pay1 (F := Ideal) i = 0 := by
  unfold k0_pay1
  exact Ideal.ofBits_zero_f32

/-- After point n the accumulator's entry (0, 0) is the sum, over the points up to n, of the block sums of
    (first − third operand)². -/
theorem acc0_re (c : Dev nD) : ∀ (n : ℕ) (hn : n < cfg0.N),
    acc0 V c n hn (ix2 (0 : Fin 1) (0 : Fin 2))
      = ∑ t : Fin (n + 1), blockSq0 (x0_0 V c ⟨t.val, by omega⟩) (x0_2 V c ⟨t.val, by omega⟩)
  | 0, hn => by
    rw [Fin.sum_univ_one, acc0, k0_pay2_re, k0_pay1_apply, zero_add]
    rfl
  | n + 1, hn => by
    rw [Fin.sum_univ_castSucc, acc0, k0_pay2_re, acc0_re c n]
    rfl

/-- And its entry (0, 1) that of (second − fourth operand)². -/
theorem acc0_im (c : Dev nD) : ∀ (n : ℕ) (hn : n < cfg0.N),
    acc0 V c n hn (ix2 (0 : Fin 1) (1 : Fin 2))
      = ∑ t : Fin (n + 1), blockSq0 (x0_1 V c ⟨t.val, by omega⟩) (x0_3 V c ⟨t.val, by omega⟩)
  | 0, hn => by
    rw [Fin.sum_univ_one, acc0, k0_pay2_im, k0_pay1_apply, zero_add]
    rfl
  | n + 1, hn => by
    rw [Fin.sum_univ_castSucc, acc0, k0_pay2_im, acc0_im c n]
    rfl

/-- After the last point, entry (0, 0) is the sum over the whole arrays of (first − third operand)². -/
theorem acc0_last_re (c : Dev nD) :
    acc0 V c 15 (by decide) (ix2 0 0) = Cert.Spec.sumSq (V c main_arg0) (V c main_arg2) := by
  refine (acc0_re V c 15 _).trans ?_
  unfold Cert.Spec.sumSq
  refine Eq.trans ?_ (sum_blocks0 fun i => Cert.Spec.sqDiff (V c main_arg0 i) (V c main_arg2 i)).symm
  refine Finset.sum_congr rfl fun t _ => ?_
  unfold blockSq0
  refine Finset.sum_congr rfl fun r _ => Finset.sum_congr rfl fun j _ => ?_
  rw [blk0_0, blk0_2]

/-- After the last point, entry (0, 1) is the sum over the whole arrays of (second − fourth operand)². -/
theorem acc0_last_im (c : Dev nD) :
    acc0 V c 15 (by decide) (ix2 0 1) = Cert.Spec.sumSq (V c main_arg1) (V c main_arg3) := by
  refine (acc0_im V c 15 _).trans ?_
  unfold Cert.Spec.sumSq
  refine Eq.trans ?_ (sum_blocks0 fun i => Cert.Spec.sqDiff (V c main_arg1 i) (V c main_arg3 i)).symm
  refine Finset.sum_congr rfl fun t _ => ?_
  unfold blockSq0
  refine Finset.sum_congr rfl fun r _ => Finset.sum_congr rfl fun j _ => ?_
  rw [blk0_1, blk0_3]

end Val0

end Cert.KernelIdeal.Hand

end
-- ==== Proof.KiVal1.lean ====
/-
  Region 1's two sums after its last grid point, read as numbers: the [1, 1] output is the sum over the whole
  [8, 8, 262144] arrays of ((operand 0 − operand 1) · mask)², and entry (b, n) of the [8, 8] output is the sum
  along row (b, n) of operand 0 of the squared differences of neighbouring entries.

  The road. Each of the region's payloads is read at an index: the masked sum payload adds, to what it is given, the
  sum over a pair of [8, 8, 4096] blocks of ((e − g) · v)², v the mask of the entry's row (the signed value of the
  zero-extended compare of the mask word with 1, which is 1 or 0); the in-block payload adds, at (b, n), the 4095
  squared differences of neighbouring entries of the block's row (b, n); the boundary payload adds the squared
  difference between the block's first column and the column carried from the block before; the carry payload is the
  block's last column. A block's entry (b, n, j) at point t is the array's entry (b, n, t · 4096 + j), and the mask's
  one block is the mask. By induction on the point, the masked sum after point p is the sum of the shares of blocks
  0 … p, and the row sum after point p is the sum of the row's squared neighbour differences at positions below
  p · 4096 + 4095: block p + 1 brings the difference across the boundary, at position p · 4096 + 4095, and its own
  4095 inner ones, at positions (p + 1) · 4096 + j. After point 63 these are the sums over the whole arrays: a row of
  262144 entries is 64 blocks of 4096, and 63 · 4096 + 4095 = 262143.
-/
import proofs.«172243_j249108103965_1_alg».proof.Proof.KiDefs
import proofs.«172243_j249108103965_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Algebra.BigOperators.Group.Finset.Basic
import Mathlib.Algebra.BigOperators.Group.Finset.Sigma
import Mathlib.Data.Fintype.BigOperators
import Mathlib.Logic.Equiv.Fin.Basic

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

namespace Sum1

/-! ## Reading the layout operations of this kernel at an index -/

section Layout
variable {α : Type}

/-- A rank-3 array cut along its last axis from `o` reads, at (a, b, j), the source at (a, b, k) with k = o + j. -/
theorem sliceLast3 {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An [a, b] array cast to [a, b, 1] reads, at (i, j, u), the operand at (i, j). -/
theorem castTrailingUnit {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast along its last axis to [a, b, c] reads, at (i, j, k), the operand at (i, j, 0). -/
theorem bcastLast3 {a b c : ℕ} (ha : a ≠ 1) (hb : b ≠ 1) (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

end Layout

/-! ## Lane sums of this kernel at an index -/

/-- A lane sum along the last of three axes, at (a, b): the sum over that axis's coordinates. -/
theorem sumLast3 {n0 n1 n2 : Nat} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (a : Fin n0) (b : Fin n1) :
    multiReduction .add [2] ⟨2, ![n0, n1]⟩ src 0x00000000#32 h hφ hacc (ix2 a b) = ∑ k : Fin n2, src (ix3 a b k) := by
  refine (Ideal.multiReduction_add_single src 0x00000000#32 h hφ hacc (ix2 a b)).trans ?_
  refine Finset.sum_congr rfl fun k _ => congrArg src ?_
  funext c
  match c with
  | ⟨0, _⟩ => rfl
  | ⟨1, _⟩ => rfl
  | ⟨2, _⟩ => rfl

/-- A lane sum along the last of two axes, at a: the sum over that axis's coordinates. -/
theorem sumLast2 {n0 n1 : Nat} (src : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ src 0x00000000#32 h hφ hacc (ix1 a) = ∑ k : Fin n1, src (ix2 a k) := by
  refine (Ideal.multiReduction_add_single src 0x00000000#32 h hφ hacc (ix1 a)).trans ?_
  refine Finset.sum_congr rfl fun k _ => congrArg src ?_
  funext c
  match c with
  | ⟨0, _⟩ => rfl
  | ⟨1, _⟩ => rfl

/-! ## The four payloads of region 1 at an index -/

/-- The mask word as a number: the signed value of the zero-extended one-bit compare with 1. -/
theorem maskNum (w : BitVec 32) :
    (FloatOps.sitofp (F := Ideal) .f32 ((IntOp.cmpi .eq w 1#32).setWidth 32) : EReal) = if w = 1#32 then 1 else 0 := by
  by_cases h : w = 1#32
  · subst h
    rw [if_pos rfl]
    show (((((IntOp.cmpi .eq (1#32 : BitVec 32) 1#32).setWidth 32).toInt : ℝ)) : EReal) = 1
    rw [show ((IntOp.cmpi .eq (1#32 : BitVec 32) 1#32).setWidth 32).toInt = 1 from by decide]
    simp
  · rw [if_neg h]
    have hb : (w == 1#32) = false := by simpa using h
    show (((((BitVec.ofBool (w == 1#32)).setWidth 32).toInt : ℝ)) : EReal) = 0
    rw [hb, show ((BitVec.ofBool false).setWidth 32).toInt = 0 from by decide]
    simp

/-- The last column of a block, kept for the next point. -/
theorem pay2_at (e : Vec Ideal S8x8x4096 .f32) (b n : Fin 8) (u : Fin 1) :
    k1_pay2 e (ix3 b n u) = e (ix3 b n (⟨4095, by omega⟩ : Fin 4096)) := by
  unfold k1_pay2
  rw [shapeCast_self]
  exact sliceLast3 4095 e _ b n u ⟨4095, by omega⟩ (by have := u.isLt; show 4095 = 4095 + u.val; omega)

/-- The zero splats the first point stores. -/
theorem pay3_at (i : S1x1.Idx) : (k1_pay3 (F := Ideal)) i = 0 := by
  unfold k1_pay3
  show Ideal.ofBits .f32 0x00000000#32 = 0
  exact Ideal.ofBits_zero_f32

theorem pay4_at (i : S8x8.Idx) : (k1_pay4 (F := Ideal)) i = 0 := by
  unfold k1_pay4
  show Ideal.ofBits .f32 0x00000000#32 = 0
  exact Ideal.ofBits_zero_f32

/-- Within a block: row (b, n)'s sum of squared differences of neighbouring entries, added to what was there. -/
theorem pay6_at (e : Vec Ideal S8x8x4096 .f32) (ms : Vec Ideal S8x8 .f32) (b n : Fin 8) :
    k1_pay6 e ms (ix2 b n) = ms (ix2 b n)
      + ∑ j : Fin 4095, Cert.Spec.sqDiff (e (ix3 b n (⟨j.val + 1, by omega⟩ : Fin 4096))) (e (ix3 b n (⟨j.val, by omega⟩ : Fin 4096))) := by
  unfold k1_pay6
  rw [shapeCast_self]
  refine congrArg (ms (ix2 b n) + ·) ?_
  refine (sumLast3 _ reduces_S8x8x4095_S8x8 _ _ b n).trans ?_
  refine Finset.sum_congr rfl fun j _ => ?_
  show (extractStridedSlice S8x8x4095 ![0, 0, 1] e slices_S8x8x4096_o0_0_1_S8x8x4095 (ix3 b n j)
        - extractStridedSlice S8x8x4095 ![0, 0, 0] e slices_S8x8x4096_o0_0_0_S8x8x4095 (ix3 b n j))
      * (extractStridedSlice S8x8x4095 ![0, 0, 1] e slices_S8x8x4096_o0_0_1_S8x8x4095 (ix3 b n j)
        - extractStridedSlice S8x8x4095 ![0, 0, 0] e slices_S8x8x4096_o0_0_0_S8x8x4095 (ix3 b n j)) = _
  rw [sliceLast3 1 e slices_S8x8x4096_o0_0_1_S8x8x4095 b n j ⟨j.val + 1, by omega⟩ (by show j.val + 1 = 1 + j.val; omega),
    sliceLast3 0 e slices_S8x8x4096_o0_0_0_S8x8x4095 b n j ⟨j.val, by omega⟩ (by show j.val = 0 + j.val; omega)]
  rfl

/-- Across two blocks: the squared difference between a block's first column and the column carried from the block
    before, added to what was there. -/
theorem pay1_at (e : Vec Ideal S8x8x4096 .f32) (cy : Vec Ideal S8x8x1 .f32) (ms : Vec Ideal S8x8 .f32) (b n : Fin 8) :
    k1_pay1 e cy ms (ix2 b n) = ms (ix2 b n)
      + Cert.Spec.sqDiff (e (ix3 b n (⟨0, by omega⟩ : Fin 4096))) (cy (ix3 b n (0 : Fin 1))) := by
  unfold k1_pay1
  rw [shapeCast_self]
  refine congrArg (ms (ix2 b n) + ·) ?_
  refine (sumLast3 _ reduces_S8x8x1_S8x8 _ _ b n).trans ?_
  rw [Fin.sum_univ_one]
  show (extractStridedSlice S8x8x1 ![0, 0, 0] e slices_S8x8x4096_o0_0_0_S8x8x1 (ix3 b n (0 : Fin 1)) - cy (ix3 b n (0 : Fin 1)))
      * (extractStridedSlice S8x8x1 ![0, 0, 0] e slices_S8x8x4096_o0_0_0_S8x8x1 (ix3 b n (0 : Fin 1)) - cy (ix3 b n (0 : Fin 1))) = _
  rw [sliceLast3 0 e slices_S8x8x4096_o0_0_0_S8x8x1 b n (0 : Fin 1) ⟨0, by omega⟩ rfl]
  rfl

/-- The mask of row (b, n), as the kernel spreads it over the row's entries. -/
theorem maskVec_at (mk : Vec Ideal S8x8 .i32) (b n : Fin 8) (j : Fin 4096) :
    broadcastTo S8x8x4096 (shapeCast S8x8x1 (sitofp (F := Ideal) .f32 (extui 32 (cmpi .eq mk (broadcast S8x8 1#32)) natLt_1_32))
        shapeCasts_S8x8_S8x8x1) broadcasts_S8x8x1_S8x8x4096 (ix3 b n j) = Cert.Spec.maskf mk (ix2 b n) := by
  refine (bcastLast3 (by decide) (by decide) _ _ b n j).trans ?_
  refine (castTrailingUnit _ _ b n (0 : Fin 1)).trans ?_
  exact maskNum (mk (ix2 b n))

/-- The one entry of a [1, 1] vector. -/
theorem extractAt00 {α : Type} (v : (⟨2, ![1, 1]⟩ : Shape).Idx → α) (h : ∀ a, (![0, 0] : Fin 2 → ℕ) a < (⟨2, ![1, 1]⟩ : Shape).size a) :
    extractAt ![0, 0] v h = v (ix2 (0 : Fin 1) (0 : Fin 1)) :=
  congrArg v (funext fun a => match a with | ⟨0, _⟩ => rfl | ⟨1, _⟩ => rfl)

/-- The masked sum of squares over a pair of blocks, added to what was there. -/
theorem pay5_at (e tg : Vec Ideal S8x8x4096 .f32) (mk : Vec Ideal S8x8 .i32) (s : Vec Ideal S1x1 .f32) :
    k1_pay5 e tg mk s (ix2 (0 : Fin 1) (0 : Fin 1)) = s (ix2 (0 : Fin 1) (0 : Fin 1))
      + ∑ b : Fin 8, ∑ n : Fin 8, ∑ j : Fin 4096,
          ((e (ix3 b n j) - tg (ix3 b n j)) * Cert.Spec.maskf mk (ix2 b n))
            * ((e (ix3 b n j) - tg (ix3 b n j)) * Cert.Spec.maskf mk (ix2 b n)) := by
  unfold k1_pay5
  rw [shapeCast_self]
  refine congrArg (s (ix2 (0 : Fin 1) (0 : Fin 1)) + ·) ?_
  refine (extractAt00 _ _).trans ?_
  refine (shapeCast_a_1a_apply _ _ (0 : Fin 1) (0 : Fin 1)).trans ?_
  refine (sumLast2 _ reduces_S1x8_S1 _ _ (0 : Fin 1)).trans ?_
  refine Finset.sum_congr rfl fun b _ => (shapeCast_a_1a_apply _ _ (0 : Fin 1) b).trans ((sumLast2 _ reduces_S8x8_S8 _ _ b).trans
    (Finset.sum_congr rfl fun n _ => (sumLast3 _ reduces_S8x8x4096_S8x8 _ _ b n).trans (Finset.sum_congr rfl fun j _ => ?_)))
  exact congrArg (fun m => ((e (ix3 b n j) - tg (ix3 b n j)) * m) * ((e (ix3 b n j) - tg (ix3 b n j)) * m)) (maskVec_at mk b n j)

/-! ## Sums over the arrays' index sets, re-indexed -/

section Sums
variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A row of 262144 entries is 64 blocks of 4096: entry k = t · 4096 + j. -/
def rowBlocks : Fin 64 × Fin 4096 ≃ Fin 262144 :=
  finProdFinEquiv.trans (finCongr (by norm_num : 64 * 4096 = 262144))

theorem rowBlocks_val (t : Fin 64) (j : Fin 4096) : (rowBlocks (t, j)).val = t.val * 4096 + j.val := by
  show j.val + 4096 * t.val = t.val * 4096 + j.val
  omega

/-- A sum along a row, block by block. -/
theorem sum_row_blocks (g : Fin 262144 → M) :
    ∑ k, g k = ∑ t : Fin 64, ∑ j : Fin 4096, g ⟨t.val * 4096 + j.val, by omega⟩ := by
  rw [← Equiv.sum_comp rowBlocks g, Fintype.sum_prod_type]
  exact Finset.sum_congr rfl fun t _ => Finset.sum_congr rfl fun j _ => congrArg g (Fin.ext (rowBlocks_val t j))

/-- The terms of a sequence up to the end of block p + 1: those up to the end of block p, those inside block p + 1, and
    the one across the boundary between the two. -/
theorem sum_range_next_block (d : ℕ → M) (p : ℕ) :
    ∑ k ∈ Finset.range ((p + 1) * 4096 + 4095), d k
      = (∑ k ∈ Finset.range (p * 4096 + 4095), d k + ∑ j ∈ Finset.range 4095, d ((p + 1) * 4096 + j)) + d (p * 4096 + 4095) := by
  have e : (p + 1) * 4096 + 4095 = (p * 4096 + 4095 + 1) + 4095 := by omega
  have e2 : p * 4096 + 4095 + 1 = (p + 1) * 4096 := by omega
  rw [e, Finset.sum_range_add, Finset.sum_range_succ, e2, add_right_comm]

end Sums

section Arrays
variable (V : (c : Dev nD) → (b : Ref sig .tc) → Buf (Elt Ideal) ((c : Thread nD τ).loc b))

/-! ## A block's entry is an entry of its array -/

/-- The block indices of the three input windows over the grid: the two big operands move along their last axis with
    the point; the mask's one block is the whole mask. -/
theorem idx1_0 : ∀ t : Fin cfg1.N, win1_0.index t (0 : Fin 3) = 0 ∧ win1_0.index t (1 : Fin 3) = 0 ∧ win1_0.index t (2 : Fin 3) = t.val :=
  (by decide +kernel : ∀ t : Fin grid1.N, win1_0.index t (0 : Fin 3) = 0 ∧ win1_0.index t (1 : Fin 3) = 0 ∧ win1_0.index t (2 : Fin 3) = t.val)
theorem idx1_1 : ∀ t : Fin cfg1.N, win1_1.index t (0 : Fin 3) = 0 ∧ win1_1.index t (1 : Fin 3) = 0 ∧ win1_1.index t (2 : Fin 3) = t.val :=
  (by decide +kernel : ∀ t : Fin grid1.N, win1_1.index t (0 : Fin 3) = 0 ∧ win1_1.index t (1 : Fin 3) = 0 ∧ win1_1.index t (2 : Fin 3) = t.val)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem lt_row (t : Fin cfg1.N) (j : Fin 4096) : t.val * 4096 + j.val < 262144 := by
  have := t.isLt; have : cfg1.N = 64 := N_1; omega

theorem x1_0_at (c : Dev nD) (t : Fin cfg1.N) (b n : Fin 8) (j : Fin 4096) :
    x1_0 V c t (ix3 b n j) = V c main_arg4 (ix3 b n (⟨t.val * 4096 + j.val, lt_row t j⟩ : Fin 262144)) := by
  unfold x1_0 iblk1
  rw [View.read_apply]
  show V c main_arg4 _ = V c main_arg4 _
  congr 1
  funext a
  apply Fin.ext
  obtain ⟨h0, h1, h2⟩ := idx1_0 t
  match a with
  | ⟨0, _⟩ => show win1_0.index t 0 * 8 + 1 * b.val = b.val; rw [h0]; omega
  | ⟨1, _⟩ => show win1_0.index t 1 * 8 + 1 * n.val = n.val; rw [h1]; omega
  | ⟨2, _⟩ => show win1_0.index t 2 * 4096 + 1 * j.val = t.val * 4096 + j.val; rw [h2]; omega

theorem x1_1_at (c : Dev nD) (t : Fin cfg1.N) (b n : Fin 8) (j : Fin 4096) :
    x1_1 V c t (ix3 b n j) = V c main_arg5 (ix3 b n (⟨t.val * 4096 + j.val, lt_row t j⟩ : Fin 262144)) := by
  unfold x1_1 iblk1
  rw [View.read_apply]
  show V c main_arg5 _ = V c main_arg5 _
  congr 1
  funext a
  apply Fin.ext
  obtain ⟨h0, h1, h2⟩ := idx1_1 t
  match a with
  | ⟨0, _⟩ => show win1_1.index t 0 * 8 + 1 * b.val = b.val; rw [h0]; omega
  | ⟨1, _⟩ => show win1_1.index t 1 * 8 + 1 * n.val = n.val; rw [h1]; omega
  | ⟨2, _⟩ => show win1_1.index t 2 * 4096 + 1 * j.val = t.val * 4096 + j.val; rw [h2]; omega

theorem x1_2_at (c : Dev nD) (t : Fin cfg1.N) (b n : Fin 8) :
    x1_2 V c t (ix2 b n) = V c main_arg6 (ix2 b n) := by
  unfold x1_2 iblk1
  rw [View.read_apply]
  show V c main_arg6 _ = V c main_arg6 _
  congr 1
  funext a
  apply Fin.ext
  obtain ⟨h0, h1⟩ := idx1_2 t
  match a with
  | ⟨0, _⟩ => show win1_2.index t 0 * 8 + 1 * b.val = b.val; rw [h0]; omega
  | ⟨1, _⟩ => show win1_2.index t 1 * 8 + 1 * n.val = n.val; rw [h1]; omega

/-- The mask's block is the mask, at every point. -/
theorem x1_2_eq (c : Dev nD) (t : Fin cfg1.N) : x1_2 V c t = V c main_arg6 := by
  funext i
  obtain ⟨p, q, rfl⟩ : ∃ (p q : Fin 8), i = ix2 p q := ⟨i 0, i 1, eq_ix2 i⟩
  exact x1_2_at V c t p q

/-! ## The row (b, n) of operand 0 as a sequence, and its squared neighbour differences -/

/-- Entry k of row (b, n) of operand 0; 0 past the row's end. -/
def rowSeq (c : Dev nD) (b n : Fin 8) (k : ℕ) : EReal :=
  if h : k < 262144 then V c main_arg4 (ix3 b n (⟨k, h⟩ : Fin 262144)) else 0

theorem rowSeq_of_lt (c : Dev nD) (b n : Fin 8) (k : ℕ) (h : k < 262144) :
    rowSeq V c b n k = V c main_arg4 (ix3 b n (⟨k, h⟩ : Fin 262144)) := dif_pos h

/-- The squared difference of the row's entries k + 1 and k. -/
def nbrSq (c : Dev nD) (b n : Fin 8) (k : ℕ) : EReal :=
  Cert.Spec.sqDiff (rowSeq V c b n (k + 1)) (rowSeq V c b n k)

/-- Entry j of block t's row (b, n) is entry t · 4096 + j of the row. -/
theorem x1_0_row (c : Dev nD) (t : Fin cfg1.N) (b n : Fin 8) (j : ℕ) (hj : j < 4096) :
    x1_0 V c t (ix3 b n (⟨j, hj⟩ : Fin 4096)) = rowSeq V c b n (t.val * 4096 + j) :=
  (x1_0_at V c t b n ⟨j, hj⟩).trans (rowSeq_of_lt V c b n (t.val * 4096 + j) (lt_row t ⟨j, hj⟩)).symm

/-- The squared neighbour differences inside block t are those of the row at positions t · 4096 + j, j < 4095. -/
theorem inBlock (c : Dev nD) (t : Fin cfg1.N) (b n : Fin 8) :
    ∑ j : Fin 4095, Cert.Spec.sqDiff (x1_0 V c t (ix3 b n (⟨j.val + 1, by omega⟩ : Fin 4096))) (x1_0 V c t (ix3 b n (⟨j.val, by omega⟩ : Fin 4096)))
      = ∑ j ∈ Finset.range 4095, nbrSq V c b n (t.val * 4096 + j) := by
  rw [← Fin.sum_univ_eq_sum_range (fun j => nbrSq V c b n (t.val * 4096 + j)) 4095]
  refine Finset.sum_congr rfl fun j _ => ?_
  rw [x1_0_row V c t b n (j.val + 1) (by omega), x1_0_row V c t b n j.val (by omega)]
  rfl

/-- The term across the boundary between blocks p and p + 1: the first entry of block p + 1 against the last of block p. -/
theorem acrossBlocks (c : Dev nD) (p : ℕ) (hp : p + 1 < cfg1.N) (b n : Fin 8) :
    Cert.Spec.sqDiff (x1_0 V c ⟨p + 1, hp⟩ (ix3 b n (⟨0, by omega⟩ : Fin 4096))) (rowSeq V c b n (p * 4096 + 4095))
      = nbrSq V c b n (p * 4096 + 4095) := by
  rw [x1_0_row V c ⟨p + 1, hp⟩ b n 0 (by omega)]
  unfold nbrSq
  have e : (p + 1) * 4096 + 0 = p * 4096 + 4095 + 1 := by omega
  show Cert.Spec.sqDiff (rowSeq V c b n ((p + 1) * 4096 + 0)) _ = _
  rw [e]

/-! ## Region 1 after point p -/

/-- The carried column after point p is the row's entry at the end of block p. -/
theorem outs1_carry (c : Dev nD) (p : ℕ) (hp : p < cfg1.N) (b n : Fin 8) :
    (outs1 V c p hp).2.2 (ix3 b n (0 : Fin 1)) = rowSeq V c b n (p * 4096 + 4095) := by
  have h : (outs1 V c p hp).2.2 = k1_pay2 (x1_0 V c ⟨p, hp⟩) := by
    cases p with
    | zero => rfl
    | succ q => rfl
  rw [h, pay2_at]
  exact x1_0_row V c ⟨p, hp⟩ b n 4095 (by omega)

/-- The per-row sum after point p: the squared neighbour differences at positions below p · 4096 + 4095. -/
theorem outs1_ms (c : Dev nD) (b n : Fin 8) : ∀ (p : ℕ) (hp : p < cfg1.N),
    (outs1 V c p hp).2.1 (ix2 b n) = ∑ k ∈ Finset.range (p * 4096 + 4095), nbrSq V c b n k
  | 0, hp => by
    show k1_pay6 (x1_0 V c ⟨0, hp⟩) (k1_pay4 (F := Ideal)) (ix2 b n) = _
    rw [pay6_at, pay4_at, zero_add, inBlock]
    simp only [Nat.zero_mul, Nat.zero_add]
  | p + 1, hp => by
    show k1_pay1 (x1_0 V c ⟨p + 1, hp⟩) (outs1 V c p (Nat.lt_of_succ_lt hp)).2.2
      (k1_pay6 (x1_0 V c ⟨p + 1, hp⟩) (outs1 V c p (Nat.lt_of_succ_lt hp)).2.1) (ix2 b n) = _
    rw [pay1_at, pay6_at, outs1_ms c b n p, outs1_carry, inBlock, sum_range_next_block, acrossBlocks]

/-! ## The masked sum, block by block -/

/-- The masked square at entry (b, n, k) of two operands e, g under the mask mk. -/
def mskSqOf (e g : (⟨3, ![8, 8, 262144]⟩ : Shape).Idx → EReal) (mk : (⟨2, ![8, 8]⟩ : Shape).Idx → BitVec 32)
    (b n : Fin 8) (k : Fin 262144) : EReal :=
  ((e (ix3 b n k) - g (ix3 b n k)) * Cert.Spec.maskf mk (ix2 b n)) * ((e (ix3 b n k) - g (ix3 b n k)) * Cert.Spec.maskf mk (ix2 b n))

/-- … of the region's two big operands under its mask. -/
def mskSq (c : Dev nD) (b n : Fin 8) (k : Fin 262144) : EReal :=
  mskSqOf (V c main_arg4) (V c main_arg5) (V c main_arg6) b n k

/-- Block t's share of the masked sum. -/
def blockIf (c : Dev nD) (t : Fin cfg1.N) : EReal :=
  ∑ b : Fin 8, ∑ n : Fin 8, ∑ j : Fin 4096, mskSq V c b n ⟨t.val * 4096 + j.val, lt_row t j⟩

/-- Point t adds block t's share to the running masked sum. -/
theorem pay5_block (c : Dev nD) (t : Fin cfg1.N) (s : Vec Ideal S1x1 .f32) :
    k1_pay5 (x1_0 V c t) (x1_1 V c t) (x1_2 V c t) s (ix2 (0 : Fin 1) (0 : Fin 1)) = s (ix2 (0 : Fin 1) (0 : Fin 1)) + blockIf V c t := by
  rw [pay5_at, x1_2_eq]
  refine congrArg (s (ix2 (0 : Fin 1) (0 : Fin 1)) + ·) (Finset.sum_congr rfl fun b _ => Finset.sum_congr rfl fun n _ =>
    Finset.sum_congr rfl fun j _ => ?_)
  rw [x1_0_at, x1_1_at]
  rfl

/-- The masked sum after point p: the shares of blocks 0 … p. -/
theorem outs1_if (c : Dev nD) : ∀ (p : ℕ) (hp : p < cfg1.N),
    (outs1 V c p hp).1 (ix2 (0 : Fin 1) (0 : Fin 1)) = ∑ t : Fin (p + 1), blockIf V c (Fin.castLE (Nat.succ_le_of_lt hp) t)
  | 0, hp => by
    show k1_pay5 (x1_0 V c ⟨0, hp⟩) (x1_1 V c ⟨0, hp⟩) (x1_2 V c ⟨0, hp⟩) (k1_pay3 (F := Ideal)) (ix2 (0 : Fin 1) (0 : Fin 1)) = _
    rw [pay5_block, pay3_at, zero_add, Fin.sum_univ_one]
    rfl
  | p + 1, hp => by
    show k1_pay5 (x1_0 V c ⟨p + 1, hp⟩) (x1_1 V c ⟨p + 1, hp⟩) (x1_2 V c ⟨p + 1, hp⟩) (outs1 V c p (Nat.lt_of_succ_lt hp)).1
      (ix2 (0 : Fin 1) (0 : Fin 1)) = _
    rw [pay5_block, outs1_if c p]
    exact (Fin.sum_univ_castSucc (fun t : Fin (p + 1 + 1) => blockIf V c (Fin.castLE (Nat.succ_le_of_lt hp) t))).symm

end Arrays

end Sum1

section Val1
variable (V : (c : Dev nD) → (b : Ref sig .tc) → Buf (Elt Ideal) ((c : Thread nD τ).loc b))
open Sum1

/-! ## After the last point -/

theorem outs1_last_if (c : Dev nD) :
    (outs1 V c 63 (by decide)).1 (ix2 0 0) = Cert.Spec.sumSqMasked (V c main_arg4) (V c main_arg5) (V c main_arg6) := by
  refine (outs1_if V c 63 (by decide)).trans ?_
  unfold Cert.Spec.sumSqMasked
  rw [sum_idx3]
  show _ = ∑ b : Fin 8, ∑ n : Fin 8, ∑ k : Fin 262144, mskSq V c b n k
  have hrow : ∀ b n : Fin 8, ∑ k : Fin 262144, mskSq V c b n k
      = ∑ t : Fin 64, ∑ j : Fin 4096, mskSq V c b n ⟨t.val * 4096 + j.val, by omega⟩ := fun b n => sum_row_blocks _
  simp only [hrow]
  rw [Finset.sum_congr rfl fun b _ => Finset.sum_comm, Finset.sum_comm]
  rfl

theorem outs1_last_ms (c : Dev nD) (b n : Fin 8) :
    (outs1 V c 63 (by decide)).2.1 (ix2 b n) = Cert.Spec.sumNbr (V c main_arg4) b n := by
  refine (outs1_ms V c b n 63 (by decide)).trans ?_
  unfold Cert.Spec.sumNbr
  rw [show 63 * 4096 + 4095 = 262143 from rfl, ← Fin.sum_univ_eq_sum_range (fun k => nbrSq V c b n k) 262143]
  refine Finset.sum_congr rfl fun k _ => ?_
  unfold nbrSq
  rw [rowSeq_of_lt V c b n (k.val + 1) (by omega), rowSeq_of_lt V c b n k.val (by omega)]

end Val1

end Cert.KernelIdeal.Hand

end
-- ==== Proof.Join.lean ====
/-
  The two programs' results as ONE term: the host operations of KiTail.lean applied to the four plain sums of
  Spec.lean. On the kernel's side the regions' output arrays hold those sums (the accumulators after the last grid
  point); on the reference's side its reductions are those sums.
-/
import proofs.«172243_j249108103965_1_alg».proof.Proof.Gen.KernelIdeal.Launch
import proofs.«172243_j249108103965_1_alg».proof.Proof.Gen.KernelIdeal.Skeleton
import proofs.«172243_j249108103965_1_alg».proof.Proof.Gen.KernelIdeal.Points
import proofs.«172243_j249108103965_1_alg».proof.Proof.Results
import proofs.«172243_j249108103965_1_alg».proof.Proof.KiVal0
import proofs.«172243_j249108103965_1_alg».proof.Proof.KiVal1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section KernelSide
variable (m : (ℓ : Loc nD τ sig) → Buf (Elt Ideal) ℓ)

/-- The four sums of the kernel's argument arrays. -/
abbrev specSr (c : Dev nD) := leafSq (m ((c : Thread nD τ).loc main_arg0)) (m ((c : Thread nD τ).loc main_arg2))
abbrev specSi (c : Dev nD) := leafSq (m ((c : Thread nD τ).loc main_arg1)) (m ((c : Thread nD τ).loc main_arg3))
abbrev specSif (c : Dev nD) := leafSqM (m ((c : Thread nD τ).loc main_arg4)) (m ((c : Thread nD τ).loc main_arg5)) (m ((c : Thread nD τ).loc main_arg6))
abbrev specMs (c : Dev nD) := leafNbr (m ((c : Thread nD τ).loc main_arg4))

/-- Region 1 finds the three arrays it reads as launched: region 0 writes none of them. -/
theorem V1_main_arg4 (c : Dev nD) : V1 m c main_arg4 = m ((c : Thread nD τ).loc main_arg4) := W1_of_ne m c main_arg4 (by decide)
theorem V1_main_arg5 (c : Dev nD) : V1 m c main_arg5 = m ((c : Thread nD τ).loc main_arg5) := W1_of_ne m c main_arg5 (by decide)
theorem V1_main_arg6 (c : Dev nD) : V1 m c main_arg6 = m ((c : Thread nD τ).loc main_arg6) := W1_of_ne m c main_arg6 (by decide)

/-- After both regions the [1, 2] array holds region 0's accumulator after its last point, -/
theorem W2_main_v0 (c : Dev nD) :
    W2 m c (Proc.devRef .tc main_v0) = (acc0 (V0 m) c 15 (by decide) : Vec Ideal S1x2 .f32) :=
  (W2_of_ne m c main_v0 (by decide)).trans ((W1_arr m c 4).trans (final0 (V0 m) c))
/-- the [1, 1] and [8, 8] arrays region 1's two sums after its last point, -/
theorem W2_main_v1_0 (c : Dev nD) :
    W2 m c (Proc.devRef .tc main_v1_0) = ((outs1 (V1 m) c 63 (by decide)).1 : Vec Ideal S1x1 .f32) :=
  (W2_arr m c 3).trans (final1_3 (V1 m) c)
theorem W2_main_v1_1 (c : Dev nD) :
    W2 m c (Proc.devRef .tc main_v1_1) = ((outs1 (V1 m) c 63 (by decide)).2.1 : Vec Ideal S8x8 .f32) :=
  (W2_arr m c 4).trans (final1_4 (V1 m) c)
/-- and the mask is as launched. -/
theorem W2_main_arg6 (c : Dev nD) : W2 m c (Proc.devRef .tc main_arg6) = m ((c : Thread nD τ).loc main_arg6) :=
  ((W2_arr m c 2).trans (((dat1 (V1 m) c).arrAt_in 2 rfl _).trans (A_eq1 (V1 m) c 2))).trans (V1_main_arg6 m c)

theorem kSr_eq (c : Dev nD) : kSr m c = specSr m c := by
  funext i
  show shapeCast S_ (extractStridedSlice S1x1 ![0, 0] (W2 m c (Proc.devRef .tc main_v0)) slices_S1x2_S1x1_0_0) shapeCasts_S1x1_S_ i = _
  rw [shapeCast_apply _ _ i (ix2 0 0) rfl,
    extractStridedSlice_apply _ _ _ (ix2 0 0) (ix2 0 0) (fun a => by match a with | ⟨0, _⟩ => rfl | ⟨1, _⟩ => rfl),
    W2_main_v0]
  exact acc0_last_re (V0 m) c

theorem kSi_eq (c : Dev nD) : kSi m c = specSi m c := by
  funext i
  show shapeCast S_ (extractStridedSlice S1x1 ![0, 1] (W2 m c (Proc.devRef .tc main_v0)) slices_S1x2_S1x1_0_1) shapeCasts_S1x1_S_ i = _
  rw [shapeCast_apply _ _ i (ix2 0 0) rfl,
    extractStridedSlice_apply _ _ _ (ix2 0 0) (ix2 0 1) (fun a => by match a with | ⟨0, _⟩ => rfl | ⟨1, _⟩ => rfl),
    W2_main_v0]
  exact acc0_last_im (V0 m) c

theorem kSif_eq (c : Dev nD) : kSif m c = specSif m c := by
  funext i
  show shapeCast S_ (W2 m c (Proc.devRef .tc main_v1_0)) shapeCasts_S1x1_S_ i = _
  rw [shapeCast_apply _ _ i (ix2 0 0) rfl, W2_main_v1_0]
  refine (outs1_last_if (V1 m) c).trans ?_
  rw [V1_main_arg4, V1_main_arg5, V1_main_arg6]; rfl

theorem kMs_eq (c : Dev nD) : W2 m c (Proc.devRef .tc main_v1_1) = specMs m c := by
  rw [W2_main_v1_1]
  funext i
  obtain ⟨b, n, rfl⟩ : ∃ (b n : Fin 8), i = ix2 b n := ⟨⟨(i 0).val, (i 0).isLt⟩, ⟨(i 1).val, (i 1).isLt⟩, eq_ix2 i⟩
  refine (outs1_last_ms (V1 m) c b n).trans ?_
  rw [V1_main_arg4]; rfl

/-- The kernel's run with its four results named: the host operations of the four sums of its arguments. -/
theorem value_run (ρ : Dev nD → PrngReg) : θ_run defs (onTc (τ := τ) (main (F := Ideal))) ⟨m, fun _ => 0, ρ⟩ (fun r => ∀ c : Dev nD,
      r.2.mem ((c.tc : Thread nD τ).loc main_v27) = resTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v8) = resRecon (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = resIf (m ((c.tc : Thread nD τ).loc main_arg4)) (m ((c.tc : Thread nD τ).loc main_arg5)) (m ((c.tc : Thread nD τ).loc main_arg6))
      ∧ r.2.mem ((c.tc : Thread nD τ).loc main_v23) = resSmooth (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v27 (by decide))).trans ((W5_main_v27 m c).trans (by rw [kSr_eq, kSi_eq, kSif_eq, kMs_eq, W2_main_arg6]; rfl)),
     (h c _ (mem_uc main_v8 (by decide))).trans ((W5_main_v8 m c).trans (by rw [kSr_eq, kSi_eq]; rfl)),
     (h c _ (mem_uc main_v11 (by decide))).trans ((W5_main_v11 m c).trans (by rw [kSif_eq]; rfl)),
     (h c _ (mem_uc main_v23 (by decide))).trans ((W5_main_v23 m c).trans (by rw [kMs_eq, W2_main_arg6]; rfl)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_main m ρ)

end KernelSide

end Cert.KernelIdeal.Hand

end
-- ==== Proof.RefValue.lean ====
/-
  The reference's reductions read as the plain sums of Spec.lean: the two mean-squared-error numerators,
  the masked one (where (e·v − g·v)² = ((e − g)·v)² because v is 0 or 1), and the row sums of squared
  neighbour differences; and the mask as a number, 1 where the mask word is 1 and 0 elsewhere.

  Each sum starts from the word of +0, which is the extended real 0, so the initial value drops out by 0 + s = s.
  No step uses distributivity or finiteness: the masked identity is read off the two values of v.
-/
import proofs.«172243_j249108103965_1_alg».proof.Proof.RefReadP
import proofs.«172243_j249108103965_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP

/-! ### The two unmasked sums: Σ over the whole array of (a − b)·(a − b) -/

theorem ref_sumSq_re (x0 x2 : (⟨S8x262144, .f32⟩ : BufTy).Contents (Elt Ideal)) (i : S_.Idx) :
    val_main_v2 (F := Ideal) x0 x2 i = Cert.Spec.sumSq x0 x2 := by
  rw [val_main_v2_apply, val_main_cst_apply, Ideal.ofBits_def, Ideal.ofBits_zero_f32, zero_add]
  unfold Cert.Spec.sumSq Cert.Spec.sqDiff
  refine Finset.sum_congr rfl fun j _ => ?_
  rw [val_main_v1_apply, val_main_v0_apply, Ideal.mulf_def, Ideal.subf_def]

theorem ref_sumSq_im (x1 x3 : (⟨S8x262144, .f32⟩ : BufTy).Contents (Elt Ideal)) (i : S_.Idx) :
    val_main_v6 (F := Ideal) x1 x3 i = Cert.Spec.sumSq x1 x3 := by
  rw [val_main_v6_apply, val_main_cst_1_apply, Ideal.ofBits_def, Ideal.ofBits_zero_f32, zero_add]
  unfold Cert.Spec.sumSq Cert.Spec.sqDiff
  refine Finset.sum_congr rfl fun j _ => ?_
  rw [val_main_v5_apply, val_main_v4_apply, Ideal.mulf_def, Ideal.subf_def]

/-! ### The mask as a number -/

/-- An unsigned one-bit word read as a number: the truth value 1 or 0. -/
theorem uitofp_ofBool (p : Bool) :
    (FloatOps.uitofp (F := Ideal) .f32 (BitVec.ofBool p) : EReal) = if p then 1 else 0 := by
  cases p
  · show (((BitVec.ofBool false).toNat : ℝ) : EReal) = 0
    simp
  · show (((BitVec.ofBool true).toNat : ℝ) : EReal) = 1
    simp

/-- The reference's mask as a float is 1 where the mask word is 1 and 0 elsewhere. -/
theorem ref_maskf (x6 : (⟨S8x8, .i32⟩ : BufTy).Contents (Elt Ideal)) (i : S8x8.Idx) :
    val_main_v12 (F := Ideal) x6 i = Cert.Spec.maskf x6 i := by
  rw [val_main_v12_apply, val_main_v11_apply, val_main_v10_apply, val_main_c_apply]
  unfold Cert.Spec.maskf
  show FloatOps.uitofp (F := Ideal) .f32 (BitVec.ofBool (x6 i == 1#32)) = _
  rw [uitofp_ofBool]
  by_cases h : x6 i = 1#32
  · rw [if_pos h, if_pos (by simpa using h)]
  · rw [if_neg h, if_neg (by simpa using h)]

/-! ### The masked sum: Σ over the whole array of ((e − g)·v)·((e − g)·v) -/

/-- The mask broadcast along the last axis reads, at entry j, the mask of row (j0, j1). -/
theorem row_index (j : S8x8x262144.Idx) :
    idx_main_v13 (idx_main_v14 j)
      = ix2 (n0 := 8) (n1 := 8) ⟨(j 0).val, (j 0).isLt⟩ ⟨(j 1).val, (j 1).isLt⟩ := by
  funext a
  match a with
  | ⟨0, _⟩ => rfl
  | ⟨1, _⟩ => rfl

/-- For a factor v that is 0 or 1, e·v − g·v = (e − g)·v for all extended reals e, g:
    at v = 1 both sides are e − g, at v = 0 both are 0. -/
theorem sub_mul_mask (e g : EReal) (mk : (⟨2, ![8, 8]⟩ : Shape).Idx → BitVec 32) (r : (⟨2, ![8, 8]⟩ : Shape).Idx) :
    e * Cert.Spec.maskf mk r - g * Cert.Spec.maskf mk r = (e - g) * Cert.Spec.maskf mk r := by
  unfold Cert.Spec.maskf
  by_cases h : mk r = 1#32
  · rw [if_pos h, mul_one, mul_one, mul_one]
  · rw [if_neg h, mul_zero, mul_zero, mul_zero, sub_zero]

theorem ref_sumSqMasked (x4 x5 : (⟨S8x8x262144, .f32⟩ : BufTy).Contents (Elt Ideal)) (x6 : (⟨S8x8, .i32⟩ : BufTy).Contents (Elt Ideal)) (i : S_.Idx) :
    val_main_v20 (F := Ideal) x4 x5 x6 i = Cert.Spec.sumSqMasked x4 x5 x6 := by
  rw [val_main_v20_apply, val_main_cst_4_apply, Ideal.ofBits_def, Ideal.ofBits_zero_f32, zero_add]
  unfold Cert.Spec.sumSqMasked
  refine Finset.sum_congr rfl fun j _ => ?_
  rw [val_main_v19_apply, val_main_v18_apply, val_main_v15_apply, val_main_v17_apply,
    val_main_v14_apply, val_main_v16_apply, val_main_v13_apply,
    row_index, ref_maskf, Ideal.mulf_def, Ideal.subf_def, Ideal.mulf_def, Ideal.mulf_def, sub_mul_mask]

/-! ### The row sums of squared neighbour differences -/

/-- Row (b, n) of the array shifted left by one, read at position k, is entry (b, n, k + 1). -/
theorem shifted_index (b n : Fin 8) (k : Fin 262143) :
    idx_main_v24 (idx_main_v28 (ix2 b n) k) = ix3 b n ⟨k.val + 1, by omega⟩ := by
  funext a
  match a with
  | ⟨0, _⟩ => rfl
  | ⟨1, _⟩ => rfl
  | ⟨2, _⟩ => exact Fin.ext (Nat.add_comm 1 k.val)

/-- Row (b, n) of the array with its last entry dropped, read at position k, is entry (b, n, k). -/
theorem kept_index (b n : Fin 8) (k : Fin 262143) :
    idx_main_v25 (idx_main_v28 (ix2 b n) k) = ix3 b n ⟨k.val, by omega⟩ := by
  funext a
  match a with
  | ⟨0, _⟩ => rfl
  | ⟨1, _⟩ => rfl
  | ⟨2, _⟩ => rfl

theorem ref_sumNbr (x4 : (⟨S8x8x262144, .f32⟩ : BufTy).Contents (Elt Ideal)) (b n : Fin 8) :
    val_main_v28 (F := Ideal) x4 (ix2 b n) = Cert.Spec.sumNbr x4 b n := by
  rw [val_main_v28_apply, val_main_cst_7_apply, Ideal.ofBits_def, Ideal.ofBits_zero_f32, zero_add]
  unfold Cert.Spec.sumNbr Cert.Spec.sqDiff
  refine Finset.sum_congr rfl fun k _ => ?_
  rw [val_main_v27_apply, val_main_v26_apply, val_main_v24_apply, val_main_v25_apply,
    Ideal.mulf_def, Ideal.subf_def, shifted_index, kept_index]

end Cert.ReferenceIdeal.RefValue

end
-- ==== Proof.RefJoin.lean ====
/-
  The reference's four results are the host operations of KiTail.lean applied to its four reductions: the two
  programs end in the same operations, literal by literal.
-/
import proofs.«172243_j249108103965_1_alg».proof.Proof.Results
import proofs.«172243_j249108103965_1_alg».proof.Proof.RefValue

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.ReadP

variable {F : FTy → Type} [FloatOps F]

theorem ref_total (x0 x1 x2 x3 : (⟨S8x262144, .f32⟩ : BufTy).Contents (Elt F)) (x4 x5 : (⟨S8x8x262144, .f32⟩ : BufTy).Contents (Elt F))
    (x6 : (⟨S8x8, .i32⟩ : BufTy).Contents (Elt F)) :
    val_main_v39 (F := F) x0 x1 x2 x3 x4 x5 x6
      = Cert.KernelIdeal.Hand.tTotal (val_main_v2 (F := F) x0 x2) (val_main_v6 (F := F) x1 x3) (val_main_v20 (F := F) x4 x5 x6) (val_main_v28 (F := F) x4) x6 := rfl
theorem ref_recon (x0 x1 x2 x3 : (⟨S8x262144, .f32⟩ : BufTy).Contents (Elt F)) :
    val_main_v8 (F := F) x0 x1 x2 x3 = Cert.KernelIdeal.Hand.tRecon (val_main_v2 (F := F) x0 x2) (val_main_v6 (F := F) x1 x3) := rfl
theorem ref_if (x4 x5 : (⟨S8x8x262144, .f32⟩ : BufTy).Contents (Elt F)) (x6 : (⟨S8x8, .i32⟩ : BufTy).Contents (Elt F)) :
    val_main_v21 (F := F) x4 x5 x6 = Cert.KernelIdeal.Hand.tIf (val_main_v20 (F := F) x4 x5 x6) := rfl
theorem ref_smooth (x4 : (⟨S8x8x262144, .f32⟩ : BufTy).Contents (Elt F)) (x6 : (⟨S8x8, .i32⟩ : BufTy).Contents (Elt F)) :
    val_main_v35 (F := F) x4 x6 = Cert.KernelIdeal.Hand.tSmooth (val_main_v28 (F := F) x4) x6 := rfl

open Cert.KernelIdeal.Hand (leafSq leafSqM leafNbr resTotal resRecon resIf resSmooth)
open Idealize.ShloMosaic.ValueIdx

theorem leaf_v2 (x0 x2 : (⟨S8x262144, .f32⟩ : BufTy).Contents (Elt Ideal)) : val_main_v2 (F := Ideal) x0 x2 = leafSq x0 x2 :=
  funext fun i => ref_sumSq_re x0 x2 i
theorem leaf_v6 (x1 x3 : (⟨S8x262144, .f32⟩ : BufTy).Contents (Elt Ideal)) : val_main_v6 (F := Ideal) x1 x3 = leafSq x1 x3 :=
  funext fun i => ref_sumSq_im x1 x3 i
theorem leaf_v20 (x4 x5 : (⟨S8x8x262144, .f32⟩ : BufTy).Contents (Elt Ideal)) (x6 : (⟨S8x8, .i32⟩ : BufTy).Contents (Elt Ideal)) :
    val_main_v20 (F := Ideal) x4 x5 x6 = leafSqM x4 x5 x6 :=
  funext fun i => ref_sumSqMasked x4 x5 x6 i
theorem leaf_v28 (x4 : (⟨S8x8x262144, .f32⟩ : BufTy).Contents (Elt Ideal)) : val_main_v28 (F := Ideal) x4 = leafNbr x4 := by
  funext i
  obtain ⟨b, n, rfl⟩ : ∃ (b n : Fin 8), i = ix2 b n := ⟨⟨(i 0).val, (i 0).isLt⟩, ⟨(i 1).val, (i 1).isLt⟩, eq_ix2 i⟩
  exact ref_sumNbr x4 b n

/-- The reference's run with its four results named: the host operations of the four sums of its arguments. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39) = resTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v8) = resRecon (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21) = resIf (m ((c.tc : Thread nD τ).loc main_arg4)) (m ((c.tc : Thread nD τ).loc main_arg5)) (m ((c.tc : Thread nD τ).loc main_arg6))
      ∧ r.2.mem ((c.tc : Thread nD τ).loc main_v35) = resSmooth (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).1.trans ((val_main_v39_eq _ _ _ _ _ _ _).trans ((ref_total _ _ _ _ _ _ _).trans (by rw [leaf_v2, leaf_v6, leaf_v20, leaf_v28]; rfl))),
     (h c).2.1.trans ((val_main_v8_eq _ _ _ _).trans ((ref_recon _ _ _ _).trans (by rw [leaf_v2, leaf_v6]; rfl))),
     (h c).2.2.1.trans ((val_main_v21_eq _ _ _).trans ((ref_if _ _ _).trans (by rw [leaf_v20]; rfl))),
     (h c).2.2.2.1.trans ((val_main_v35_eq _ _).trans ((ref_smooth _ _).trans (by rw [leaf_v28]; rfl))),
     (h c).2.2.2.2⟩) (Cert.ReferenceIdeal.ValueP.run (F := Ideal) m ρ)

end Cert.ReferenceIdeal.RefValue

end
-- ==== Proof.lean ====
/-
  The loss is three means: the mean of (recon − target)² over the real and the imaginary arrays, the mean of
  ((eIF − target_if) · mask)², and, over the rows the mask keeps, the mean of the squared differences of neighbouring
  entries of eIF along time. The kernel computes the three numerators in two gridded calls — sums of squares block by
  block into an accumulator that the first grid point resets; the neighbour differences inside a block, plus the one
  across each block boundary against the last column carried in scratch — and then divides and weighs on the host
  exactly as the reference does, literal by literal.

  At the ideal instance both programs therefore end with the same host operations applied to the same four plain sums
  of extended reals: on the kernel's side each accumulator after the last grid point is the whole sum, re-grouped by
  blocks (sums of extended reals may be re-ordered and re-grouped freely); on the reference's side the masked term
  (e·v − g·v)² is ((e − g)·v)² because v is 0 or 1. No step needs finiteness of the inputs.

  The three frames: each kernel region runs point by point under the library's pipeline rule (region 1's invariant
  holding the carried column), the host operations by the host rule, the arguments never written; the reference's
  frame is its run with the results dropped. The idealization rewrote nothing, so `preserves` is trivial.
-/
import proofs.«172243_j249108103965_1_alg».proof.Defs
import proofs.«172243_j249108103965_1_alg».proof.Proof.Gen.Kernel
import proofs.«172243_j249108103965_1_alg».proof.Proof.Gen.KernelIdeal
import proofs.«172243_j249108103965_1_alg».proof.Proof.Gen.ReferenceIdeal
import proofs.«172243_j249108103965_1_alg».proof.Proof.Gen.Pre_finite_inputs
import proofs.«172243_j249108103965_1_alg».proof.Proof.KbRun
import proofs.«172243_j249108103965_1_alg».proof.Proof.Join
import proofs.«172243_j249108103965_1_alg».proof.Proof.RefJoin
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2) (Cert.ReferenceIdeal.RefValue.ref_run m ρ)

theorem preserves : Cert.preserves_Kernel_KernelIdeal := trivial

/-- Both programs end with the host operations of the same four sums of arguments that agree. -/
theorem algebraic : Cert.algebraic_KernelIdeal_ReferenceIdeal := by
  intro m ρ m' ρ' _ hagree
  refine ⟨_, _, _, _, Cert.KernelIdeal.Hand.value_run m ρ, ?_⟩
  refine (θ_run Cert.ReferenceIdeal.defs _ _).mono (fun _ h c => ?_) (Cert.ReferenceIdeal.RefValue.ref_run m' ρ')
  obtain ⟨e0, e1, e2, e3, e4, e5, e6⟩ := hagree c
  obtain ⟨h1, h2, h3, h4, hargs⟩ := h c
  rw [e0, e1, e2, e3, e4, e5, e6] at h1
  rw [e0, e1, e2, e3] at h2
  rw [e4, e5, e6] at h3
  rw [e4, e6] at h4
  exact ⟨h1, h2, h3, h4, hargs⟩

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
